-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000x128 : Shape := ⟨2, ![1200000, 128]⟩
abbrev S1200000x64 : Shape := ⟨2, ![1200000, 64]⟩
abbrev S100000x64 : Shape := ⟨2, ![100000, 64]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S1200000x128 : S_.BroadcastsInDim S1200000x128 (![] : Fin 0 → Fin S1200000x128.rank)
  reducesTo_S1200000x128_S_d0_1 : S1200000x128.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x64 .f32) (main_arg12 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S1200000x128 .f32) (main_arg1 : FVec F S1200000x64 .f32) (main_arg2 : FVec F S100000x64 .f32) (main_arg3 : IVec S1200000 32) (main_arg4 : IVec S1200000 32) (main_arg5 : FVec F S128x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S1200000x128 .f32 := Host.absf main_arg0
  let main_cst : FVec F S_ .f32 := constant S_ .f32 0x7F800000#32
  let main_v1 : FVec F S1200000x128 .f32 := broadcastInDim S1200000x128 ![] bcast_S_S1200000x128 main_cst
  let main_v2 : IVec S1200000x128 1 := cmpf .olt main_v0 main_v1
  let main_c : IVec S_ 1 := constantI S_ 1 1#1
  let main_v3 : IVec S_ 1 := (fun x v => Host.reduce IntOp.andi x v reducesTo_S1200000x128_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S1200000x128 : Shape := ⟨2, ![1200000, 128]⟩
abbrev S1200000x64 : Shape := ⟨2, ![1200000, 64]⟩
abbrev S100000x64 : Shape := ⟨2, ![100000, 64]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S_ : Shape := ⟨0, ![]⟩
abbrev S1200000x1 : Shape := ⟨2, ![1200000, 1]⟩
abbrev S1x64 : Shape := ⟨2, ![1, 64]⟩
abbrev S4800x128 : Shape := ⟨2, ![4800, 128]⟩
abbrev S4800x64 : Shape := ⟨2, ![4800, 64]⟩
abbrev S100000x1 : Shape := ⟨2, ![100000, 1]⟩
abbrev S5000x64 : Shape := ⟨2, ![5000, 64]⟩

abbrev nBuf : Space → Nat
  | .hbm => 51
  | .vmem => 20
  | .smem => 0
  | _ => 0

abbrev bufTy : (tb : Table) → Fin (tcTables nBuf tb) → BufTy
  | .hbm, ⟨0, _⟩ => ⟨S1200000x128, .f32⟩
  | .hbm, ⟨1, _⟩ => ⟨S1200000x64, .f32⟩
  | .hbm, ⟨2, _⟩ => ⟨S100000x64, .f32⟩
  | .hbm, ⟨3, _⟩ => ⟨S1200000, .i32⟩
  | .hbm, ⟨4, _⟩ => ⟨S1200000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S1x64, .f32⟩
  | .hbm, ⟨23, _⟩ => ⟨S1x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S_, .f32⟩
  | .hbm, ⟨30, _⟩ => ⟨S1200000x1, .f32⟩
  | .hbm, ⟨31, _⟩ => ⟨S_, .f32⟩
  | .hbm, ⟨32, _⟩ => ⟨S100000x1, .f32⟩
  | .hbm, ⟨33, _⟩ => ⟨S1200000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .i1⟩
  | .hbm, ⟨38, _⟩ => ⟨S_, .f32⟩
  | .hbm, ⟨39, _⟩ => ⟨S100000x1, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S_, .f32⟩
  | .hbm, ⟨45, _⟩ => ⟨S100000x64, .i1⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S100000x64, .f32⟩
  | .local _ .vmem, ⟨0, _⟩ => ⟨S4800x128, .f32⟩
  | .local _ .vmem, ⟨1, _⟩ => ⟨S4800x128, .f32⟩
  | .local _ .vmem, ⟨2, _⟩ => ⟨S4800x64, .f32⟩
  | .local _ .vmem, ⟨3, _⟩ => ⟨S4800x64, .f32⟩
  | .local _ .vmem, ⟨4, _⟩ => ⟨S4800x64, .f32⟩
  | .local _ .vmem, ⟨5, _⟩ => ⟨S4800x64, .f32⟩
  | .local _ .vmem, ⟨6, _⟩ => ⟨S128x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S4800x64, .f32⟩
  | .local _ .vmem, ⟨11, _⟩ => ⟨S4800x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S1200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4800x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S64_S1x64 : S64.ShapeCasts S1x64
  inb_S4800x128_S4800x128_0_0 : ∀ a, (![0, 0] : Fin 2 → Nat) a + S4800x128.size a ≤ S4800x128.size a
  h_S4800x128 : 0 < S4800x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4800x64 : S1x64.Broadcasts S4800x64
  inb_S64x64_S64x64_0_0 : ∀ a, (![0, 0] : Fin 2 → Nat) a + S64x64.size a ≤ S64x64.size a
  h_S64x64 : 0 < S64x64.numel
  inb_S4800x64_S4800x64_0_0 : ∀ a, (![0, 0] : Fin 2 → Nat) a + S4800x64.size a ≤ S4800x64.size a
  h_S4800x64 : 0 < S4800x64.numel
  shapeCasts_S4800x64_S4800x64 : S4800x64.ShapeCasts S4800x64
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S100000x64_S1200000x1_S1200000x64_1_0_n_n_0_1_164_wf : GatherDims.WF S100000x64 S1200000x1 S1200000x64 [1] [0] [] [0] [] 1 ![1, 64]
  dot_S4800x128_S128x64_S4800x64_1_0_0_1_n_n_wf : DotDims.WF S4800x128 S128x64 S4800x64 [1] [0] [0] [1] [] []
  dot_S4800x64_S64x64_S4800x64_1_0_0_1_n_n_wf : DotDims.WF S4800x64 S64x64 S4800x64 [1] [0] [0] [1] [] []
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x128.size a ≤ S1200000x128.size a
  hwx0_0 : ∀ i : grid0.Coords, EltTy.bits .f32 = 32 ∨ (Rect.block (s := S1200000x128) S4800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x64.size a ≤ S1200000x64.size a
  hwx0_1 : ∀ i : grid0.Coords, EltTy.bits .f32 = 32 ∨ (Rect.block (s := S1200000x64) S4800x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x64.size a ≤ S1200000x64.size a
  hwx0_2 : ∀ i : grid0.Coords, EltTy.bits .f32 = 32 ∨ (Rect.block (s := S1200000x64) S4800x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4800x64.size a ≤ S1200000x64.size a
  hwx0_7 : ∀ i : grid0.Coords, EltTy.bits .f32 = 32 ∨ (Rect.block (s := S1200000x64) S4800x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S4800x128_S128x64_S4800x64_1_0_0_1_n_n : DotDims S4800x128 S128x64 S4800x64 where
  lhsContracting := [1]
  rhsContracting := [0]
  lhsNonContracting := [0]
  rhsNonContracting := [1]
  lhsBatch := []
  rhsBatch := []
  wf := dot_S4800x128_S128x64_S4800x64_1_0_0_1_n_n_wf
def dot_S4800x64_S64x64_S4800x64_1_0_0_1_n_n : DotDims S4800x64 S64x64 S4800x64 where
  lhsContracting := [1]
  rhsContracting := [0]
  lhsNonContracting := [0]
  rhsNonContracting := [1]
  lhsBatch := []
  rhsBatch := []
  wf := dot_S4800x64_S64x64_S4800x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S4800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4800x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4800x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1200000x128 : Shape := ⟨2, ![1200000, 128]⟩
abbrev S1200000x64 : Shape := ⟨2, ![1200000, 64]⟩
abbrev S100000x64 : Shape := ⟨2, ![100000, 64]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S_ : Shape := ⟨0, ![]⟩
abbrev S1200000x1 : Shape := ⟨2, ![1200000, 1]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S1200000x128, .f32⟩
  | 1 => ⟨S1200000x64, .f32⟩
  | 2 => ⟨S100000x64, .f32⟩
  | 3 => ⟨S1200000, .i32⟩
  | 4 => ⟨S1200000, .i32⟩
  | 5 => ⟨S128x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S1200000x64, .f32⟩
  | 14 => ⟨S1x64, .f32⟩
  | 15 => ⟨S1200000x64, .f32⟩
  | 16 => ⟨S1200000x64, .f32⟩
  | 17 => ⟨S_, .f32⟩
  | 18 => ⟨S1200000x64, .f32⟩
  | 19 => ⟨S1200000x64, .f32⟩
  | 20 => ⟨S1200000x64, .f32⟩
  | 21 => ⟨S1200000x64, .f32⟩
  | 22 => ⟨S1200000x64, .i1⟩
  | 23 => ⟨S1200000x64, .f32⟩
  | 24 => ⟨S1200000x64, .f32⟩
  | 25 => ⟨S1200000x64, .f32⟩
  | 26 => ⟨S1200000x64, .f32⟩
  | 27 => ⟨S1200000x64, .f32⟩
  | 28 => ⟨S1200000x64, .f32⟩
  | 29 => ⟨S1200000x64, .f32⟩
  | 30 => ⟨S1200000x64, .f32⟩
  | 31 => ⟨S_, .f32⟩
  | 32 => ⟨S1200000x64, .f32⟩
  | 33 => ⟨S1200000x64, .f32⟩
  | 34 => ⟨S1200000x64, .f32⟩
  | 35 => ⟨S1x64, .f32⟩
  | 36 => ⟨S1200000x64, .f32⟩
  | 37 => ⟨S1200000x64, .f32⟩
  | 38 => ⟨S_, .f32⟩
  | 39 => ⟨S1200000x64, .f32⟩
  | 40 => ⟨S1200000x64, .f32⟩
  | 41 => ⟨S1200000x64, .f32⟩
  | 42 => ⟨S1200000x64, .f32⟩
  | 43 => ⟨S1200000x64, .i1⟩
  | 44 => ⟨S1200000x64, .f32⟩
  | 45 => ⟨S1200000x64, .f32⟩
  | 46 => ⟨S1200000x64, .f32⟩
  | 47 => ⟨S1200000x64, .f32⟩
  | 48 => ⟨S1200000x64, .f32⟩
  | 49 => ⟨S1200000x64, .f32⟩
  | 50 => ⟨S1200000x64, .f32⟩
  | 51 => ⟨S1200000x64, .f32⟩
  | 52 => ⟨S_, .f32⟩
  | 53 => ⟨S1200000x64, .f32⟩
  | 54 => ⟨S1200000x64, .f32⟩
  | 55 => ⟨S1200000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1200000x64, .f32⟩
  | 65 => ⟨S1200000x64, .f32⟩
  | 66 => ⟨S_, .f32⟩
  | 67 => ⟨S100000x64, .f32⟩
  | 68 => ⟨S1200000x1, .i32⟩
  | 69 => ⟨S100000x64, .f32⟩
  | 70 => ⟨S_, .f32⟩
  | 71 => ⟨S1200000x1, .f32⟩
  | 72 => ⟨S_, .f32⟩
  | 73 => ⟨S100000x1, .f32⟩
  | 74 => ⟨S1200000x1, .i32⟩
  | 75 => ⟨S100000x1, .f32⟩
  | 76 => ⟨S_, .f32⟩
  | 77 => ⟨S100000x1, .f32⟩
  | 78 => ⟨S100000x1, .i1⟩
  | 79 => ⟨S_, .f32⟩
  | 80 => ⟨S100000x1, .f32⟩
  | 81 => ⟨S100000x1, .f32⟩
  | 82 => ⟨S100000x64, .f32⟩
  | 83 => ⟨S100000x64, .f32⟩
  | 84 => ⟨S_, .f32⟩
  | 85 => ⟨S_, .f32⟩
  | 86 => ⟨S100000x64, .i1⟩
  | 87 => ⟨S100000x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000x64, .f32⟩
  | 98 => ⟨S100000x64, .i1⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S100000x64, .i1⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S1200000x128, .f32⟩

abbrev hbmTy0_1 (i : Nat) : BufTy := match i % 128 with
  | 0 => ⟨S_, .f32⟩
  | 1 => ⟨S100000x64, .f32⟩
  | 2 => ⟨S100000x64, .f32⟩
  | _ => ⟨S1200000x128, .f32⟩

abbrev hbmTy (i : Nat) : BufTy := match i / 128 with
  | 0 => hbmTy0_0 i
  | 1 => hbmTy0_1 i
  | _ => ⟨S1200000x128, .f32⟩

abbrev bufTy : (tb : Table) → Fin (tcTables nBuf tb) → BufTy
  | .hbm, ⟨i, _⟩ => hbmTy i
  | _, _ => ⟨S1200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v11 : Ref sig .tc := ⟨.hbm, 51, rfl⟩
abbrev main_cst_0 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c : Ref sig .tc := ⟨.hbm, 56, rfl⟩
abbrev main_v15 : Ref sig .tc := ⟨.hbm, 57, rfl⟩
abbrev main_v16 : Ref sig .tc := ⟨.hbm, 58, rfl⟩
abbrev main_c_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_cst_4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_v41 : Ref sig .tc := ⟨.hbm, 106, rfl⟩
abbrev main_cst_8 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_v48 : Ref sig .tc := ⟨.hbm, 127, rfl⟩
abbrev main_cst_9 : Ref sig .tc := ⟨.hbm, 128, rfl⟩
abbrev main_v49 : Ref sig .tc := ⟨.hbm, 129, rfl⟩
abbrev main_v50 : Ref sig .tc := ⟨.hbm, 130, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  dot_S1200000x128_S128x64_S1200000x64_1_0_0_1_n_n_wf : DotDims.WF S1200000x128 S128x64 S1200000x64 [1] [0] [0] [1] [] []
  dot_S1200000x64_S64x64_S1200000x64_1_0_0_1_n_n_wf : DotDims.WF S1200000x64 S64x64 S1200000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x64_S64x64_S100000x64_1_0_0_1_n_n_wf : DotDims.WF S100000x64 S64x64 S100000x64 [1] [0] [0] [1] [] []

variable [Facts₀]

def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics both programs compute, on the extended reals.

  A SchNet continuous-filter convolution. Per edge `e` the radial features `bf e` go through two dense layers, each
  followed by the shifted softplus `ssp`; the result gates the edge features `eh e` and multiplies the source node's
  features: the message `m e = nh (src e) · (ssp (ssp (bf e · W1 + b1) · W2 + b2) · eh e)`. Messages are averaged over
  the edges that point at a node, and the average goes through two more dense layers with `ssp`.

  Both programs spell the softplus as `max h 0 + log (1 + exp (−|h − 0|))` behind a guard `h − 0 ≠ h − 0` that is
  never taken on the extended reals (it tests for a NaN, and there is none), and both subtract the same f32 word for
  ln 2, which is therefore never evaluated. They differ in one spelling only: one writes the negation `−a`, the other
  the difference `0 − a`; these agree on every extended real, the infinities included.

  A dense layer's sum is over the contracted axis only, so a row of the result depends on that row of the input alone:
  that is why computing the rows tile by tile gives the same array as computing them at once.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 word of zero, as an extended real. -/
abbrev zeroW : EReal := Ideal.ofBits .f32 0x00000000#32
/-- The f32 word nearest ln 2, as an extended real (never evaluated: both programs subtract the same word). -/
abbrev ln2W : EReal := Ideal.ofBits .f32 0x3F317218#32

/-- The shifted softplus as both programs spell it: `max h 0 + log (1 + exp (−|h − 0|)) − ln2W`, the absolute value
    written `max a (−a)`. -/
def ssp (h : EReal) : EReal :=
  (max h zeroW + Ideal.log1p (Ideal.exp (-(max (h - zeroW) (-(h - zeroW)))))) - ln2W

/-- The guard in front of the softplus, `a ≠ a` in either of its two spellings, is never taken: no extended real
    differs from itself. -/
theorem guard_dead (p : CmpFPredicate) (hp : p = .one ∨ p = .une) (a : EReal) {α : Type} (x y : α) :
    Scalar.select (Ideal.cmp p a a) x y = y := by
  rcases hp with rfl | rfl <;> simp [Scalar.select, Ideal.cmp]

/-- The difference from the zero word is the negation, on every extended real. -/
theorem zeroW_sub (a : EReal) : zeroW - a = -a := by
  rw [show zeroW = 0 from Ideal.ofBits_zero_f32, zero_sub]

/-- One dense layer and the shifted softplus, at one output entry: `ssp (∑ₖ x k · w k + b)`. -/
def layer {K : ℕ} (x w : Fin K → EReal) (b : EReal) : EReal :=
  ssp ((∑ k, x k * w k) + b)

/-- The message of one edge at feature `j`, from that edge's row of radial features `bfrow`, its edge feature `ehv`
    and its source node's feature `nhv` at `j`: `nhv · (layer₂ (layer₁ bfrow) j · ehv)`. -/
def edgeRow (bfrow : Fin 128 → EReal) (ehv nhv : EReal) (W1 : Fin 128 → Fin 64 → EReal) (b1 : Fin 64 → EReal)
    (W2 : Fin 64 → Fin 64 → EReal) (b2 : Fin 64 → EReal) (j : Fin 64) : EReal :=
  nhv * (layer (fun k => layer bfrow (fun r => W1 r k) (b1 k)) (fun k => W2 k j) (b2 j) * ehv)

/-- The output of one node at feature `j`, from that node's row of averaged messages: two dense layers with `ssp`. -/
def nodeRow (aggrow : Fin 64 → EReal) (W3 : Fin 64 → Fin 64 → EReal) (b3 : Fin 64 → EReal)
    (W4 : Fin 64 → Fin 64 → EReal) (b4 : Fin 64 → EReal) (j : Fin 64) : EReal :=
  layer (fun k => layer aggrow (fun r => W3 r k) (b3 k)) (fun k => W4 k j) (b4 j)

/-- 1,200,000 edges by 128 radial features; by 64 features; 100,000 nodes by 64 features. -/
abbrev SE128 : Shape := ⟨2, ![1200000, 128]⟩
abbrev SE64 : Shape := ⟨2, ![1200000, 64]⟩
abbrev SN64 : Shape := ⟨2, ![100000, 64]⟩

/-- Every edge's message, as one array: entry `(e, j)` is `edgeRow` of row `e`. -/
def edgeArr (bf : SE128.Idx → EReal) (eh nhs : SE64.Idx → EReal) (W1 : Fin 128 → Fin 64 → EReal) (b1 : Fin 64 → EReal)
    (W2 : Fin 64 → Fin 64 → EReal) (b2 : Fin 64 → EReal) : SE64.Idx → EReal :=
  fun i => edgeRow (fun r => bf (ix2 (n0 := 1200000) (n1 := 128) (i 0) r)) (eh i) (nhs i) W1 b1 W2 b2 (i 1)

/-- Every node's output, as one array: entry `(n, j)` is `nodeRow` of row `n`. -/
def nodeArr (agg : SN64.Idx → EReal) (W3 : Fin 64 → Fin 64 → EReal) (b3 : Fin 64 → EReal)
    (W4 : Fin 64 → Fin 64 → EReal) (b4 : Fin 64 → EReal) : SN64.Idx → EReal :=
  fun i => nodeRow (fun r => agg (ix2 (n0 := 100000) (n1 := 64) (i 0) r)) W3 b3 W4 b4 (i 1)

end Cert.Spec

end
-- ==== Proof.KSoftplus.lean ====
/-
  The shifted softplus in the kernel's spelling, for a vector of any shape, is `Spec.ssp` entry by entry.

  The kernel writes `select (h − 0 ≠ h − 0) (h + 0) (max h 0 + log1p (exp (0 − |h − 0|))) − w`, every zero a splat of
  the f32 zero word and `w` a splat of the f32 word nearest ln 2. The guard is never taken on the extended reals,
  and the difference from zero is the negation.
-/
import proofs.«160038_j54176717472000_1_alg».proof.Proof.Spec
import Idealize.ShloMosaic.PureOps.Ideal
import Idealize.ShloMosaic.PureOps.Ideal.Laws

noncomputable section

namespace Cert.KSoftplus

open Idealize.ShloMosaic

/-- The kernel's shifted softplus of a vector `h`. -/
def ksp {s : Shape} (h : FVec Ideal s .f32) : FVec Ideal s .f32 :=
  subf (select (cmpf .one (subf h (broadcast s (Scalar.ofBits .f32 0x00000000#32))) (subf h (broadcast s (Scalar.ofBits .f32 0x00000000#32))))
      (addf h (broadcast s (Scalar.ofBits .f32 0x00000000#32)))
      (addf (maximumf h (broadcast s (Scalar.ofBits .f32 0x00000000#32)))
        (log1p (exp (subf (broadcast s (Scalar.ofBits .f32 0x00000000#32)) (absf (subf h (broadcast s (Scalar.ofBits .f32 0x00000000#32)))))))))
    (broadcast s (Scalar.ofBits .f32 0x3F317218#32))

/-- Entry by entry it is `Spec.ssp`: the guard is dead, and `0 − a = −a`. -/
theorem ksp_apply {s : Shape} (h : FVec Ideal s .f32) (i : s.Idx) : ksp h i = Cert.Spec.ssp (h i) := by
  show Scalar.select (Ideal.cmp .one (h i - Cert.Spec.zeroW) (h i - Cert.Spec.zeroW)) (h i + Cert.Spec.zeroW)
      (max (h i) Cert.Spec.zeroW + Ideal.log1p (Ideal.exp (Cert.Spec.zeroW - max (h i - Cert.Spec.zeroW) (-(h i - Cert.Spec.zeroW)))))
      - Cert.Spec.ln2W = _
  rw [Cert.Spec.guard_dead _ (Or.inl rfl), Cert.Spec.zeroW_sub]
  rfl

end Cert.KSoftplus

end
-- ==== Proof.LibMatmulSum.lean ====
/-
  A matrix product with one contracted axis, accumulated into zero, read at an output index as a plain finite sum.

  On the extended reals a matrix product into the zero accumulator is, at an output index, the sum over the
  contraction index of the operands' products. When the record contracts ONE axis of extent `K`, the contraction index is
  its one coordinate, so the sum runs over `Fin K`; the factors are the operands at whatever indices the record's
  operand-index maps give, which the caller names (`L`, `R`).
-/
import Idealize.ShloMosaic.PureOps.Ideal
import Idealize.ShloMosaic.PureOps.Ideal.Laws
import Idealize.ShloMosaic.Lib.ValueIdx

noncomputable section

namespace Cert.LibMatmulSum

open Idealize.ShloMosaic

/-- A matrix product into the zero accumulator, with one contracted axis of extent `K` (`hr`, `hs`), at the output
    index `i`: the sum over `k : Fin K` of the left operand at `L k` times the right operand at `R k`, where `L` and
    `R` are what the record's operand-index maps give at `i` and the contraction coordinate `k` (`hl`, `hR`). -/
theorem matmul_zero_sum {sl sr so : Shape} {φ₁ φ₂ : FTy} (D : DotDims sl sr so) (prec : Option ContractPrecision) (K : ℕ)
    (hr : D.contr.rank = 1) (hs : D.contr.size ⟨0, by omega⟩ = K)
    (l : FVec Ideal sl φ₁) (r : FVec Ideal sr φ₂) (i : so.Idx) (L : Fin K → sl.Idx) (R : Fin K → sr.Idx)
    (hl : ∀ k, D.lhsIdx i ((ValueIdx.contrEquiv1 D K hr hs).symm k) = L k)
    (hR : ∀ k, D.rhsIdx i ((ValueIdx.contrEquiv1 D K hr hs).symm k) = R k) :
    FloatOps.matmul D prec l r (constant so .f32 0x00000000#32) i = ∑ k : Fin K, l (L k) * r (R k) := by
  rw [Ideal.matmul_constant_zero_apply, ← Equiv.sum_comp (ValueIdx.contrEquiv1 D K hr hs).symm]
  exact Finset.sum_congr rfl fun k _ => by rw [hl k, hR k]

end Cert.LibMatmulSum

end
-- ==== Proof.EdgeBody.lean ====
/-
  What one grid point of the edge kernel leaves in its output block, entry by entry.

  The block of 4800 edges at a grid point is computed from that point's blocks of the radial features, edge features
  and gathered node features, and from the whole weight and bias arrays. Entry `(p, q)` of the result is
  `Spec.edgeRow` of row `p` of the radial block, the two features at `(p, q)`, and the weights: the two matrix
  products are sums over their one contracted axis, the casts to and from bf16 are the identity on the extended
  reals, the bias row is repeated down the block, and each softplus is `Spec.ssp` entry by entry.
-/
import proofs.«160038_j54176717472000_1_alg».proof.Proof.Gen.KernelIdeal.Frame
import proofs.«160038_j54176717472000_1_alg».proof.Proof.Spec
import proofs.«160038_j54176717472000_1_alg».proof.Proof.KSoftplus
import proofs.«160038_j54176717472000_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeBody

open Cert.KernelIdeal Cert.KernelIdeal.Gen Idealize.ShloMosaic Idealize.ShloMosaic.ValueIdx Cert.Spec Cert.KSoftplus

/-! ## The operand indices of the two products: (row, k) on the left, (k, column) on the right -/

theorem d1_lhs0 (i : S4800x64.Idx) (q : dot_S4800x128_S128x64_S4800x64_1_0_0_1_n_n.contr.Idx) :
    (dot_S4800x128_S128x64_S4800x64_1_0_0_1_n_n.lhsIdx i q 0).val = (i 0).val := by
  unfold DotDims.lhsIdx
  rw [dif_neg (show ¬(0 : Fin S4800x128.rank) ∈ dot_S4800x128_S128x64_S4800x64_1_0_0_1_n_n.lhsBatch by decide), dif_pos (show (0 : Fin S4800x128.rank) ∈ dot_S4800x128_S128x64_S4800x64_1_0_0_1_n_n.lhsNonContracting by decide)]
  rfl
theorem d1_lhs1 (i : S4800x64.Idx) (q : dot_S4800x128_S128x64_S4800x64_1_0_0_1_n_n.contr.Idx) :
    (dot_S4800x128_S128x64_S4800x64_1_0_0_1_n_n.lhsIdx i q 1).val = (q ⟨0, by decide⟩).val :=
  dot_S4800x128_S128x64_S4800x64_1_0_0_1_n_n.lhsIdx_val_of_single rfl i q
theorem d1_rhs0 (i : S4800x64.Idx) (q : dot_S4800x128_S128x64_S4800x64_1_0_0_1_n_n.contr.Idx) :
    (dot_S4800x128_S128x64_S4800x64_1_0_0_1_n_n.rhsIdx i q 0).val = (q ⟨0, by decide⟩).val :=
  dot_S4800x128_S128x64_S4800x64_1_0_0_1_n_n.rhsIdx_val_of_single rfl i q
theorem d1_rhs1 (i : S4800x64.Idx) (q : dot_S4800x128_S128x64_S4800x64_1_0_0_1_n_n.contr.Idx) :
    (dot_S4800x128_S128x64_S4800x64_1_0_0_1_n_n.rhsIdx i q 1).val = (i 1).val := by
  unfold DotDims.rhsIdx
  rw [dif_neg (show ¬(1 : Fin S128x64.rank) ∈ dot_S4800x128_S128x64_S4800x64_1_0_0_1_n_n.rhsBatch by decide), dif_pos (show (1 : Fin S128x64.rank) ∈ dot_S4800x128_S128x64_S4800x64_1_0_0_1_n_n.rhsNonContracting by decide)]
  rfl

theorem d2_lhs0 (i : S4800x64.Idx) (q : dot_S4800x64_S64x64_S4800x64_1_0_0_1_n_n.contr.Idx) :
    (dot_S4800x64_S64x64_S4800x64_1_0_0_1_n_n.lhsIdx i q 0).val = (i 0).val := by
  unfold DotDims.lhsIdx
  rw [dif_neg (show ¬(0 : Fin S4800x64.rank) ∈ dot_S4800x64_S64x64_S4800x64_1_0_0_1_n_n.lhsBatch by decide), dif_pos (show (0 : Fin S4800x64.rank) ∈ dot_S4800x64_S64x64_S4800x64_1_0_0_1_n_n.lhsNonContracting by decide)]
  rfl
theorem d2_lhs1 (i : S4800x64.Idx) (q : dot_S4800x64_S64x64_S4800x64_1_0_0_1_n_n.contr.Idx) :
    (dot_S4800x64_S64x64_S4800x64_1_0_0_1_n_n.lhsIdx i q 1).val = (q ⟨0, by decide⟩).val :=
  dot_S4800x64_S64x64_S4800x64_1_0_0_1_n_n.lhsIdx_val_of_single rfl i q
theorem d2_rhs0 (i : S4800x64.Idx) (q : dot_S4800x64_S64x64_S4800x64_1_0_0_1_n_n.contr.Idx) :
    (dot_S4800x64_S64x64_S4800x64_1_0_0_1_n_n.rhsIdx i q 0).val = (q ⟨0, by decide⟩).val :=
  dot_S4800x64_S64x64_S4800x64_1_0_0_1_n_n.rhsIdx_val_of_single rfl i q
theorem d2_rhs1 (i : S4800x64.Idx) (q : dot_S4800x64_S64x64_S4800x64_1_0_0_1_n_n.contr.Idx) :
    (dot_S4800x64_S64x64_S4800x64_1_0_0_1_n_n.rhsIdx i q 1).val = (i 1).val := by
  unfold DotDims.rhsIdx
  rw [dif_neg (show ¬(1 : Fin S64x64.rank) ∈ dot_S4800x64_S64x64_S4800x64_1_0_0_1_n_n.rhsBatch by decide), dif_pos (show (1 : Fin S64x64.rank) ∈ dot_S4800x64_S64x64_S4800x64_1_0_0_1_n_n.rhsNonContracting by decide)]
  rfl

/-! ## The two dense layers before their softplus -/

/-- The first layer's pre-activation of a block: the radial block times `W1`, plus the bias row repeated. -/
def pre1 (x0 : Vec Ideal S4800x128 .f32) (x3 : Vec Ideal S128x64 .f32) (x4 : Vec Ideal S1x64 .f32) : FVec Ideal S4800x64 .f32 :=
  addf (matmul dot_S4800x128_S128x64_S4800x64_1_0_0_1_n_n none (truncf .bf16 x0 bitsLt_bf16_f32) (truncf .bf16 x3 bitsLt_bf16_f32) (constant (F := Ideal) S4800x64 .f32 0x00000000#32))
    (broadcastTo S4800x64 (shapeCast S1x64 x4 shapeCasts_S1x64_S1x64) broadcasts_S1x64_S4800x64)

theorem pre1_apply (x0 : Vec Ideal S4800x128 .f32) (x3 : Vec Ideal S128x64 .f32) (x4 : Vec Ideal S1x64 .f32) (p : Fin 4800) (q : Fin 64) :
    pre1 x0 x3 x4 (ix2 p q) = (∑ r : Fin 128, x0 (ix2 p r) * x3 (ix2 r q)) + x4 (ix2 (0 : Fin 1) q) := by
  unfold pre1
  rw [shapeCast_self]
  show FloatOps.matmul dot_S4800x128_S128x64_S4800x64_1_0_0_1_n_n none (truncf .bf16 x0 bitsLt_bf16_f32) (truncf .bf16 x3 bitsLt_bf16_f32) (constant (F := Ideal) S4800x64 .f32 0x00000000#32) (ix2 p q)
      + broadcastTo S4800x64 x4 broadcasts_S1x64_S4800x64 (ix2 p q) = _
  rw [broadcastTo_1b_ab_apply]
  refine congrArg (· + x4 (ix2 (0 : Fin 1) q)) ?_
  refine Cert.LibMatmulSum.matmul_zero_sum dot_S4800x128_S128x64_S4800x64_1_0_0_1_n_n none 128 rfl rfl _ _ (ix2 p q)
    (fun r => ix2 p r) (fun r => ix2 r q) (fun k => ?_) (fun k => ?_)
  · have hk := contrEquiv1_symm_val dot_S4800x128_S128x64_S4800x64_1_0_0_1_n_n 128 rfl rfl k
    funext a; apply Fin.ext
    match a with
    | ⟨0, _⟩ => exact d1_lhs0 _ _
    | ⟨1, _⟩ => exact (d1_lhs1 _ _).trans hk
  · have hk := contrEquiv1_symm_val dot_S4800x128_S128x64_S4800x64_1_0_0_1_n_n 128 rfl rfl k
    funext a; apply Fin.ext
    match a with
    | ⟨0, _⟩ => exact (d1_rhs0 _ _).trans hk
    | ⟨1, _⟩ => exact d1_rhs1 _ _

/-- The second layer's pre-activation of a block `h` of hidden features: `h` times `W2`, plus the bias row repeated. -/
def pre2 (h : FVec Ideal S4800x64 .f32) (x5 : Vec Ideal S64x64 .f32) (x6 : Vec Ideal S1x64 .f32) : FVec Ideal S4800x64 .f32 :=
  addf (matmul dot_S4800x64_S64x64_S4800x64_1_0_0_1_n_n none (truncf .bf16 h bitsLt_bf16_f32) (truncf .bf16 x5 bitsLt_bf16_f32) (constant (F := Ideal) S4800x64 .f32 0x00000000#32))
    (broadcastTo S4800x64 (shapeCast S1x64 x6 shapeCasts_S1x64_S1x64) broadcasts_S1x64_S4800x64)

theorem pre2_apply (h : FVec Ideal S4800x64 .f32) (x5 : Vec Ideal S64x64 .f32) (x6 : Vec Ideal S1x64 .f32) (p : Fin 4800) (q : Fin 64) :
    pre2 h x5 x6 (ix2 p q) = (∑ k : Fin 64, h (ix2 p k) * x5 (ix2 k q)) + x6 (ix2 (0 : Fin 1) q) := by
  unfold pre2
  rw [shapeCast_self]
  show FloatOps.matmul dot_S4800x64_S64x64_S4800x64_1_0_0_1_n_n none (truncf .bf16 h bitsLt_bf16_f32) (truncf .bf16 x5 bitsLt_bf16_f32) (constant (F := Ideal) S4800x64 .f32 0x00000000#32) (ix2 p q)
      + broadcastTo S4800x64 x6 broadcasts_S1x64_S4800x64 (ix2 p q) = _
  rw [broadcastTo_1b_ab_apply]
  refine congrArg (· + x6 (ix2 (0 : Fin 1) q)) ?_
  refine Cert.LibMatmulSum.matmul_zero_sum dot_S4800x64_S64x64_S4800x64_1_0_0_1_n_n none 64 rfl rfl _ _ (ix2 p q)
    (fun k => ix2 p k) (fun k => ix2 k q) (fun k => ?_) (fun k => ?_)
  · have hk := contrEquiv1_symm_val dot_S4800x64_S64x64_S4800x64_1_0_0_1_n_n 64 rfl rfl k
    funext a; apply Fin.ext
    match a with
    | ⟨0, _⟩ => exact d2_lhs0 _ _
    | ⟨1, _⟩ => exact (d2_lhs1 _ _).trans hk
  · have hk := contrEquiv1_symm_val dot_S4800x64_S64x64_S4800x64_1_0_0_1_n_n 64 rfl rfl k
    funext a; apply Fin.ext
    match a with
    | ⟨0, _⟩ => exact (d2_rhs0 _ _).trans hk
    | ⟨1, _⟩ => exact d2_rhs1 _ _

/-! ## The body's stored value -/

/-- The value the body stores, as a composition: the gathered node block times (the gated filter): the two layers
    with their softplus, times the edge block. -/
theorem payload_eq (x0 : Vec Ideal S4800x128 .f32) (x1 x2 : Vec Ideal S4800x64 .f32) (x3 : Vec Ideal S128x64 .f32)
    (x4 : Vec Ideal S1x64 .f32) (x5 : Vec Ideal S64x64 .f32) (x6 : Vec Ideal S1x64 .f32) :
    k0_pay1 (F := Ideal) (k0_pay3 x0 x3 x4 x5 x6) (k0_pay5 x0 x3 x4 x5 x6) (k0_pay6 x0 x3 x4 x5 x6) (k0_pay7 x0 x3 x4 x5 x6) (k0_pay8 (F := Ideal)) x1 x2
      = mulf (shapeCast S4800x64 x2 shapeCasts_S4800x64_S4800x64) (mulf (ksp (pre2 (ksp (pre1 x0 x3 x4)) x5 x6)) x1) := rfl

theorem hz : (![0, 0] : Fin 2 → Nat) = fun _ => 0 := funext fun a => by fin_cases a <;> rfl

/-- Entry `(p, q)` of the block a grid point leaves: `Spec.edgeRow` of the point's input blocks and the weights. -/
theorem out0_7_apply (x0 : Vec Ideal S4800x128 .f32) (x1 x2 : Vec Ideal S4800x64 .f32) (x3 : Vec Ideal S128x64 .f32)
    (x4 : Vec Ideal S1x64 .f32) (x5 : Vec Ideal S64x64 .f32) (x6 : Vec Ideal S1x64 .f32) (p : Fin 4800) (q : Fin 64) :
    out0_7 (F := Ideal) x0 x1 x2 x3 x4 x5 x6 (ix2 p q)
      = edgeRow (fun r => x0 (ix2 p r)) (x1 (ix2 p q)) (x2 (ix2 p q)) (fun r k => x3 (ix2 r k)) (fun k => x4 (ix2 (0 : Fin 1) k))
          (fun k j => x5 (ix2 k j)) (fun k => x6 (ix2 (0 : Fin 1) k)) q := by
  unfold out0_7
  rw [View.canon_unit_zero hz]
  simp only [View.ld_unit_zero (S := S4800x128) hz, View.ld_unit_zero (S := S4800x64) hz, View.ld_unit_zero (S := S128x64) hz,
    View.ld_unit_zero (S := S1x64) hz, View.ld_unit_zero (S := S64x64) hz]
  rw [payload_eq, shapeCast_self]
  show x2 (ix2 p q) * (ksp (pre2 (ksp (pre1 x0 x3 x4)) x5 x6) (ix2 p q) * x1 (ix2 p q)) = _
  rw [ksp_apply, pre2_apply]
  unfold edgeRow layer
  simp only [ksp_apply, pre1_apply]

end Cert.KernelIdeal.EdgeBody

end
-- ==== Proof.EdgeArray.lean ====
/-
  The message array the edge kernel leaves: every entry is `Spec.edgeArr` of the arrays the kernel is entered with.

  The grid has 250 points; point `t` reads rows `4800·t … 4800·t + 4799` of the radial, edge and gathered node arrays,
  the whole of each weight and bias array, and writes the same rows of the result. A row of the result depends on that
  row of the inputs alone, so what point `t` writes is rows `4800·t …` of ONE whole-array function; the 250 blocks tile
  the 1,200,000 rows (row `r` lies in block `r / 4800`), so the array ends holding that function.
-/
import proofs.«160038_j54176717472000_1_alg».proof.Proof.EdgeBody
import Idealize.ShloMosaic.Lib.Pipeline.Value

set_option maxRecDepth 16384

noncomputable section

namespace Cert.KernelIdeal.EdgeArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the region is entered with, at their literal types. -/
abbrev bfA (c : Dev nD) : Vec Ideal S1200000x128 .f32 := V c main_arg0
abbrev ehA (c : Dev nD) : Vec Ideal S1200000x64 .f32 := V c main_arg1
abbrev nhA (c : Dev nD) : Vec Ideal S1200000x64 .f32 := V c main_v6
abbrev w1A (c : Dev nD) : Vec Ideal S128x64 .f32 := V c main_arg5
abbrev b1A (c : Dev nD) : Vec Ideal S1x64 .f32 := V c main_v7
abbrev w2A (c : Dev nD) : Vec Ideal S64x64 .f32 := V c main_arg7
abbrev b2A (c : Dev nD) : Vec Ideal S1x64 .f32 := V c main_v8

/-- The whole message array as one function of the arrays the region is entered with. -/
def G (c : Dev nD) : Vec Ideal S1200000x64 .f32 :=
  Cert.Spec.edgeArr (bfA V c) (ehA V c) (nhA V c) (fun r k => w1A V c (ix2 r k)) (fun k => b1A V c (ix2 (0 : Fin 1) k))
    (fun k j => w2A V c (ix2 k j)) (fun k => b2A V c (ix2 (0 : Fin 1) k))

/-- The printed index maps, decided over the grid: the three row-blocked inputs and the output sit at block `(t, 0)`,
    the weights and biases at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of block `t` is row `4800·t + p` of the array. -/
def row (t : Fin cfg0.N) (p : Fin 4800) : Fin 1200000 :=
  ⟨t.val * 4800 + p.val, by have ht : t.val < 250 := t.isLt; have hp := p.isLt; omega⟩

/-! ## What each window's block at point `t` holds -/

theorem blk0 (c : Dev nD) (t : Fin cfg0.N) (p : Fin 4800) (r : Fin 128) :
    (iblk0 V c 0 t : Vec Ideal S4800x128 .f32) (ix2 p r) = bfA V c (ix2 (row t p) r) := by
  obtain ⟨e0, e1, -⟩ := idx_facts t
  show V c main_arg0 (((cfg0.win 0).blk t).view.emb (ix2 p r)) = V c main_arg0 (ix2 (row t p) r)
  refine congrArg (V c main_arg0) (funext fun a => Fin.ext ?_)
  match a with
  | ⟨0, _⟩ => show win0_0.index t (0 : Fin 2) * 4800 + 1 * p.val = t.val * 4800 + p.val; rw [e0]; omega
  | ⟨1, _⟩ => show win0_0.index t (1 : Fin 2) * 128 + 1 * r.val = r.val; rw [e1]; omega

theorem blk1 (c : Dev nD) (t : Fin cfg0.N) (p : Fin 4800) (q : Fin 64) :
    (iblk0 V c 1 t : Vec Ideal S4800x64 .f32) (ix2 p q) = ehA V c (ix2 (row t p) q) := by
  obtain ⟨-, -, e0, e1, -⟩ := idx_facts t
  show V c main_arg1 (((cfg0.win 1).blk t).view.emb (ix2 p q)) = V c main_arg1 (ix2 (row t p) q)
  refine congrArg (V c main_arg1) (funext fun a => Fin.ext ?_)
  match a with
  | ⟨0, _⟩ => show win0_1.index t (0 : Fin 2) * 4800 + 1 * p.val = t.val * 4800 + p.val; rw [e0]; omega
  | ⟨1, _⟩ => show win0_1.index t (1 : Fin 2) * 64 + 1 * q.val = q.val; rw [e1]; omega

theorem blk2 (c : Dev nD) (t : Fin cfg0.N) (p : Fin 4800) (q : Fin 64) :
    (iblk0 V c 2 t : Vec Ideal S4800x64 .f32) (ix2 p q) = nhA V c (ix2 (row t p) q) := by
  obtain ⟨-, -, -, -, e0, e1, -⟩ := idx_facts t
  show V c main_v6 (((cfg0.win 2).blk t).view.emb (ix2 p q)) = V c main_v6 (ix2 (row t p) q)
  refine congrArg (V c main_v6) (funext fun a => Fin.ext ?_)
  match a with
  | ⟨0, _⟩ => show win0_2.index t (0 : Fin 2) * 4800 + 1 * p.val = t.val * 4800 + p.val; rw [e0]; omega
  | ⟨1, _⟩ => show win0_2.index t (1 : Fin 2) * 64 + 1 * q.val = q.val; rw [e1]; omega

theorem blk3 (c : Dev nD) (t : Fin cfg0.N) (r : Fin 128) (k : Fin 64) :
    (iblk0 V c 3 t : Vec Ideal S128x64 .f32) (ix2 r k) = w1A V c (ix2 r k) := by
  obtain ⟨-, -, -, -, -, -, e0, e1, -⟩ := idx_facts t
  show V c main_arg5 (((cfg0.win 3).blk t).view.emb (ix2 r k)) = V c main_arg5 (ix2 r k)
  refine congrArg (V c main_arg5) (funext fun a => Fin.ext ?_)
  match a with
  | ⟨0, _⟩ => show win0_3.index t (0 : Fin 2) * 128 + 1 * r.val = r.val; rw [e0]; omega
  | ⟨1, _⟩ => show win0_3.index t (1 : Fin 2) * 64 + 1 * k.val = k.val; rw [e1]; omega

theorem blk4 (c : Dev nD) (t : Fin cfg0.N) (k : Fin 64) :
    (iblk0 V c 4 t : Vec Ideal S1x64 .f32) (ix2 (0 : Fin 1) k) = b1A V c (ix2 (0 : Fin 1) k) := by
  obtain ⟨-, -, -, -, -, -, -, -, e0, e1, -⟩ := idx_facts t
  show V c main_v7 (((cfg0.win 4).blk t).view.emb (ix2 (0 : Fin 1) k)) = V c main_v7 (ix2 (0 : Fin 1) k)
  refine congrArg (V c main_v7) (funext fun a => Fin.ext ?_)
  match a with
  | ⟨0, _⟩ => show win0_4.index t (0 : Fin 2) * 1 + 1 * 0 = 0; rw [e0]
  | ⟨1, _⟩ => show win0_4.index t (1 : Fin 2) * 64 + 1 * k.val = k.val; rw [e1]; omega

theorem blk5 (c : Dev nD) (t : Fin cfg0.N) (k j : Fin 64) :
    (iblk0 V c 5 t : Vec Ideal S64x64 .f32) (ix2 k j) = w2A V c (ix2 k j) := by
  obtain ⟨-, -, -, -, -, -, -, -, -, -, e0, e1, -⟩ := idx_facts t
  show V c main_arg7 (((cfg0.win 5).blk t).view.emb (ix2 k j)) = V c main_arg7 (ix2 k j)
  refine congrArg (V c main_arg7) (funext fun a => Fin.ext ?_)
  match a with
  | ⟨0, _⟩ => show win0_5.index t (0 : Fin 2) * 64 + 1 * k.val = k.val; rw [e0]; omega
  | ⟨1, _⟩ => show win0_5.index t (1 : Fin 2) * 64 + 1 * j.val = j.val; rw [e1]; omega

theorem blk6 (c : Dev nD) (t : Fin cfg0.N) (k : Fin 64) :
    (iblk0 V c 6 t : Vec Ideal S1x64 .f32) (ix2 (0 : Fin 1) k) = b2A V c (ix2 (0 : Fin 1) k) := by
  obtain ⟨-, -, -, -, -, -, -, -, -, -, -, -, e0, e1, -⟩ := idx_facts t
  show V c main_v8 (((cfg0.win 6).blk t).view.emb (ix2 (0 : Fin 1) k)) = V c main_v8 (ix2 (0 : Fin 1) k)
  refine congrArg (V c main_v8) (funext fun a => Fin.ext ?_)
  match a with
  | ⟨0, _⟩ => show win0_6.index t (0 : Fin 2) * 1 + 1 * 0 = 0; rw [e0]
  | ⟨1, _⟩ => show win0_6.index t (1 : Fin 2) * 64 + 1 * k.val = k.val; rw [e1]; omega

/-- Where entry `(p, q)` of the output's block `t` sits in the array. -/
theorem emb7 (t : Fin cfg0.N) (p : Fin 4800) (q : Fin 64) :
    (((cfg0.win 7).blk t).view.emb (ix2 p q) : S1200000x64.Idx) = ix2 (row t p) q := by
  obtain ⟨-, -, -, -, -, -, -, -, -, -, -, -, -, -, e0, e1⟩ := idx_facts t
  funext a; apply Fin.ext
  match a with
  | ⟨0, _⟩ => show win0_7.index t (0 : Fin 2) * 4800 + 1 * p.val = t.val * 4800 + p.val; rw [e0]; omega
  | ⟨1, _⟩ => show win0_7.index t (1 : Fin 2) * 64 + 1 * q.val = q.val; rw [e1]; omega

/-! ## What point `t` writes back, the cover, the array -/

/-- What point `t` writes back is block `t` of `G`. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  funext y
  obtain ⟨p, q, rfl⟩ : ∃ (p : Fin 4800) (q : Fin 64), y = ix2 p q := ⟨y 0, y 1, eq_ix2 y⟩
  show out0_7 (F := Ideal) (iblk0 V c 0 t) (iblk0 V c 1 t) (iblk0 V c 2 t) (iblk0 V c 3 t) (iblk0 V c 4 t) (iblk0 V c 5 t) (iblk0 V c 6 t) (ix2 p q)
    = G V c (((cfg0.win 7).blk t).view.emb (ix2 p q))
  rw [emb7]
  refine (Cert.KernelIdeal.EdgeBody.out0_7_apply (iblk0 V c 0 t) (iblk0 V c 1 t) (iblk0 V c 2 t) (iblk0 V c 3 t) (iblk0 V c 4 t) (iblk0 V c 5 t) (iblk0 V c 6 t) p q).trans ?_
  unfold G Cert.Spec.edgeArr
  simp only [blk0 V c t, blk1 V c t, blk2 V c t, blk3 V c t, blk4 V c t, blk5 V c t, blk6 V c t]

/-- An index of the array is in point `t`'s block iff each coordinate is in the block's range on its axis. -/
theorem mem_blk (t : Fin cfg0.N) (i : S1200000x64.Idx) :
    i ∈ ((cfg0.win 7).blk t).view.set ↔ ∀ a : Fin 2, win0_7.index t a * S4800x64.size a ≤ (i a).val ∧ (i a).val < win0_7.index t a * S4800x64.size a + S4800x64.size a := by
  show i ∈ ((View.whole main_v9).slice (win0_7.rect t)).set ↔ _
  rw [View.set_slice_whole, Rect.mem_set_unit]
  exact Iff.rfl

/-- Every index of the array is in some point's block: row `r` lies in block `r / 4800`. -/
theorem cover (i : S1200000x64.Idx) : ∃ t : Fin cfg0.N, (cfg0.win 7).flush t = true ∧ i ∈ ((cfg0.win 7).blk t).view.set := by
  have hi0 : (i 0).val < 1200000 := (i 0).isLt
  have hi1 : (i 1).val < 64 := (i 1).isLt
  have ht : (i 0).val / 4800 < 250 := by omega
  refine ⟨⟨(i 0).val / 4800, ht⟩, flush0_7 _, ?_⟩
  rw [mem_blk]
  obtain ⟨-, -, -, -, -, -, -, -, -, -, -, -, -, -, e0, e1⟩ := idx_facts ⟨(i 0).val / 4800, ht⟩
  intro a
  match a with
  | ⟨0, _⟩ =>
    show win0_7.index ⟨(i 0).val / 4800, ht⟩ (0 : Fin 2) * 4800 ≤ (i 0).val ∧ (i 0).val < win0_7.index ⟨(i 0).val / 4800, ht⟩ (0 : Fin 2) * 4800 + 4800
    rw [e0]; show (i 0).val / 4800 * 4800 ≤ (i 0).val ∧ (i 0).val < (i 0).val / 4800 * 4800 + 4800; omega
  | ⟨1, _⟩ =>
    show win0_7.index ⟨(i 0).val / 4800, ht⟩ (1 : Fin 2) * 64 ≤ (i 1).val ∧ (i 1).val < win0_7.index ⟨(i 0).val / 4800, ht⟩ (1 : Fin 2) * 64 + 64
    rw [e1]; omega

/-- The message array after the region. -/
theorem final (c : Dev nD) : (dat0 V c).arrAt 7 cfg0.N = G V c :=
  (dat0 V c).arrAt_eq_of_cover 7 (G V c) (fun t _ => flushed_eq V c t) (cover)

end Cert.KernelIdeal.EdgeArray

end
-- ==== Proof.NodeBody.lean ====
/-
  What one grid point of the node kernel leaves in its output block, entry by entry.

  The block of 5000 nodes at a grid point is computed from that point's block of averaged messages and from the whole
  weight and bias arrays. Entry `(p, q)` of the result is `Spec.nodeRow` of row `p` of the message block and the
  weights: two matrix products, each a sum over its one contracted axis, the casts to and from bf16 the identity on
  the extended reals, the bias row repeated down the block, each softplus `Spec.ssp` entry by entry.
-/
import proofs.«160038_j54176717472000_1_alg».proof.Proof.Gen.KernelIdeal.Frame
import proofs.«160038_j54176717472000_1_alg».proof.Proof.Spec
import proofs.«160038_j54176717472000_1_alg».proof.Proof.KSoftplus
import proofs.«160038_j54176717472000_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeBody

open Cert.KernelIdeal Cert.KernelIdeal.Gen Idealize.ShloMosaic Idealize.ShloMosaic.ValueIdx Cert.Spec Cert.KSoftplus

/-! ## The operand indices of the product: (row, k) on the left, (k, column) on the right -/

theorem d_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem d_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem d_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## A dense layer before its softplus -/

/-- A layer's pre-activation of a block `h`: `h` times the weights, plus the bias row repeated. -/
def pre (h : FVec Ideal S5000x64 .f32) (w : Vec Ideal S64x64 .f32) (b : Vec Ideal S1x64 .f32) : FVec Ideal S5000x64 .f32 :=
  addf (matmul dot_S5000x64_S64x64_S5000x64_1_0_0_1_n_n none (truncf .bf16 h bitsLt_bf16_f32) (truncf .bf16 w bitsLt_bf16_f32) (constant (F := Ideal) S5000x64 .f32 0x00000000#32))
    (broadcastTo S5000x64 (shapeCast S1x64 b shapeCasts_S1x64_S1x64) broadcasts_S1x64_S5000x64)

theorem pre_apply (h : FVec Ideal S5000x64 .f32) (w : Vec Ideal S64x64 .f32) (b : Vec Ideal S1x64 .f32) (p : Fin 5000) (q : Fin 64) :
    pre h w b (ix2 p q) = (∑ k : Fin 64, h (ix2 p k) * w (ix2 k q)) + b (ix2 (0 : Fin 1) q) := by
  unfold pre
  rw [shapeCast_self]
  show FloatOps.matmul dot_S5000x64_S64x64_S5000x64_1_0_0_1_n_n none (truncf .bf16 h bitsLt_bf16_f32) (truncf .bf16 w bitsLt_bf16_f32) (constant (F := Ideal) S5000x64 .f32 0x00000000#32) (ix2 p q)
      + broadcastTo S5000x64 b broadcasts_S1x64_S5000x64 (ix2 p q) = _
  rw [broadcastTo_1b_ab_apply]
  refine congrArg (· + b (ix2 (0 : Fin 1) q)) ?_
  refine Cert.LibMatmulSum.matmul_zero_sum dot_S5000x64_S64x64_S5000x64_1_0_0_1_n_n none 64 rfl rfl _ _ (ix2 p q)
    (fun k => ix2 p k) (fun k => ix2 k q) (fun k => ?_) (fun k => ?_)
  · have hk := contrEquiv1_symm_val dot_S5000x64_S64x64_S5000x64_1_0_0_1_n_n 64 rfl rfl k
    funext a; apply Fin.ext
    match a with
    | ⟨0, _⟩ => exact d_lhs0 _ _
    | ⟨1, _⟩ => exact (d_lhs1 _ _).trans hk
  · have hk := contrEquiv1_symm_val dot_S5000x64_S64x64_S5000x64_1_0_0_1_n_n 64 rfl rfl k
    funext a; apply Fin.ext
    match a with
    | ⟨0, _⟩ => exact (d_rhs0 _ _).trans hk
    | ⟨1, _⟩ => exact d_rhs1 _ _

/-! ## The body's stored value -/

/-- The value the body stores, as a composition: two layers, each with its softplus. -/
theorem payload_eq (x0 : Vec Ideal S5000x64 .f32) (x1 : Vec Ideal S64x64 .f32) (x2 : Vec Ideal S1x64 .f32)
    (x3 : Vec Ideal S64x64 .f32) (x4 : Vec Ideal S1x64 .f32) :
    k1_pay1 (F := Ideal) (k1_pay3 x0 x1 x2 x3 x4) (k1_pay5 x0 x1 x2 x3 x4) (k1_pay6 x0 x1 x2 x3 x4) (k1_pay7 x0 x1 x2 x3 x4) (Scalar.ofBits .f32 0x00000000#32)
      = ksp (pre (ksp (pre (shapeCast S5000x64 x0 shapeCasts_S5000x64_S5000x64) x1 x2)) x3 x4) := rfl

theorem hz : (![0, 0] : Fin 2 → Nat) = fun _ => 0 := funext fun a => by fin_cases a <;> rfl

/-- Entry `(p, q)` of the block a grid point leaves: `Spec.nodeRow` of the point's message block and the weights. -/
theorem out1_5_apply (x0 : Vec Ideal S5000x64 .f32) (x1 : Vec Ideal S64x64 .f32) (x2 : Vec Ideal S1x64 .f32)
    (x3 : Vec Ideal S64x64 .f32) (x4 : Vec Ideal S1x64 .f32) (p : Fin 5000) (q : Fin 64) :
    out1_5 (F := Ideal) x0 x1 x2 x3 x4 (ix2 p q)
      = nodeRow (fun r => x0 (ix2 p r)) (fun r k => x1 (ix2 r k)) (fun k => x2 (ix2 (0 : Fin 1) k))
          (fun k j => x3 (ix2 k j)) (fun k => x4 (ix2 (0 : Fin 1) k)) q := by
  unfold out1_5
  rw [View.canon_unit_zero hz]
  simp only [View.ld_unit_zero (S := S5000x64) hz, View.ld_unit_zero (S := S64x64) hz, View.ld_unit_zero (S := S1x64) hz]
  rw [payload_eq, shapeCast_self, ksp_apply, pre_apply]
  unfold nodeRow layer
  simp only [ksp_apply, pre_apply]

end Cert.KernelIdeal.NodeBody

end
-- ==== Proof.NodeArray.lean ====
/-
  The output array the node kernel leaves: every entry is `Spec.nodeArr` of the arrays the kernel is entered with.

  The grid has 20 points; point `t` reads rows `5000·t … 5000·t + 4999` of the averaged-message array and the whole of
  each weight and bias array, and writes the same rows of the result. A row of the result depends on that row of the
  input alone, so what point `t` writes is rows `5000·t …` of ONE whole-array function; the 20 blocks tile the 100,000
  rows (row `r` lies in block `r / 5000`), so the array ends holding that function.
-/
import proofs.«160038_j54176717472000_1_alg».proof.Proof.NodeBody
import Idealize.ShloMosaic.Lib.Pipeline.Value

set_option maxRecDepth 16384

noncomputable section

namespace Cert.KernelIdeal.NodeArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the region is entered with, at their literal types. -/
abbrev aggA (c : Dev nD) : Vec Ideal S100000x64 .f32 := V c main_v23
abbrev w3A (c : Dev nD) : Vec Ideal S64x64 .f32 := V c main_arg9
abbrev b3A (c : Dev nD) : Vec Ideal S1x64 .f32 := V c main_v24
abbrev w4A (c : Dev nD) : Vec Ideal S64x64 .f32 := V c main_arg11
abbrev b4A (c : Dev nD) : Vec Ideal S1x64 .f32 := V c main_v25

/-- The whole output array as one function of the arrays the region is entered with. -/
def G (c : Dev nD) : Vec Ideal S100000x64 .f32 :=
  Cert.Spec.nodeArr (aggA V c) (fun r k => w3A V c (ix2 r k)) (fun k => b3A V c (ix2 (0 : Fin 1) k))
    (fun k j => w4A V c (ix2 k j)) (fun k => b4A V c (ix2 (0 : Fin 1) k))

/-- The printed index maps, decided over the grid: the row-blocked input and the output sit at block `(t, 0)`, the
    weights and biases at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000·t + p` of the array. -/
def row (t : Fin cfg1.N) (p : Fin 5000) : Fin 100000 :=
  ⟨t.val * 5000 + p.val, by have ht : t.val < 20 := t.isLt; have hp := p.isLt; omega⟩

/-! ## What each window's block at point `t` holds -/

theorem blk0 (c : Dev nD) (t : Fin cfg1.N) (p : Fin 5000) (r : Fin 64) :
    (iblk1 V c 0 t : Vec Ideal S5000x64 .f32) (ix2 p r) = aggA V c (ix2 (row t p) r) := by
  obtain ⟨e0, e1, -⟩ := idx_facts t
  show V c main_v23 (((cfg1.win 0).blk t).view.emb (ix2 p r)) = V c main_v23 (ix2 (row t p) r)
  refine congrArg (V c main_v23) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * r.val = r.val; rw [e1]; omega

theorem blk1 (c : Dev nD) (t : Fin cfg1.N) (r k : Fin 64) :
    (iblk1 V c 1 t : Vec Ideal S64x64 .f32) (ix2 r k) = w3A V c (ix2 r k) := by
  obtain ⟨-, -, e0, e1, -⟩ := idx_facts t
  show V c main_arg9 (((cfg1.win 1).blk t).view.emb (ix2 r k)) = V c main_arg9 (ix2 r k)
  refine congrArg (V c main_arg9) (funext fun a => Fin.ext ?_)
  match a with
  | ⟨0, _⟩ => show win1_1.index t (0 : Fin 2) * 64 + 1 * r.val = r.val; rw [e0]; omega
  | ⟨1, _⟩ => show win1_1.index t (1 : Fin 2) * 64 + 1 * k.val = k.val; rw [e1]; omega

theorem blk2 (c : Dev nD) (t : Fin cfg1.N) (k : Fin 64) :
    (iblk1 V c 2 t : Vec Ideal S1x64 .f32) (ix2 (0 : Fin 1) k) = b3A V c (ix2 (0 : Fin 1) k) := by
  obtain ⟨-, -, -, -, e0, e1, -⟩ := idx_facts t
  show V c main_v24 (((cfg1.win 2).blk t).view.emb (ix2 (0 : Fin 1) k)) = V c main_v24 (ix2 (0 : Fin 1) k)
  refine congrArg (V c main_v24) (funext fun a => Fin.ext ?_)
  match a with
  | ⟨0, _⟩ => show win1_2.index t (0 : Fin 2) * 1 + 1 * 0 = 0; rw [e0]
  | ⟨1, _⟩ => show win1_2.index t (1 : Fin 2) * 64 + 1 * k.val = k.val; rw [e1]; omega

theorem blk3 (c : Dev nD) (t : Fin cfg1.N) (k j : Fin 64) :
    (iblk1 V c 3 t : Vec Ideal S64x64 .f32) (ix2 k j) = w4A V c (ix2 k j) := by
  obtain ⟨-, -, -, -, -, -, e0, e1, -⟩ := idx_facts t
  show V c main_arg11 (((cfg1.win 3).blk t).view.emb (ix2 k j)) = V c main_arg11 (ix2 k j)
  refine congrArg (V c main_arg11) (funext fun a => Fin.ext ?_)
  match a with
  | ⟨0, _⟩ => show win1_3.index t (0 : Fin 2) * 64 + 1 * k.val = k.val; rw [e0]; omega
  | ⟨1, _⟩ => show win1_3.index t (1 : Fin 2) * 64 + 1 * j.val = j.val; rw [e1]; omega

theorem blk4 (c : Dev nD) (t : Fin cfg1.N) (k : Fin 64) :
    (iblk1 V c 4 t : Vec Ideal S1x64 .f32) (ix2 (0 : Fin 1) k) = b4A V c (ix2 (0 : Fin 1) k) := by
  obtain ⟨-, -, -, -, -, -, -, -, e0, e1, -⟩ := idx_facts t
  show V c main_v25 (((cfg1.win 4).blk t).view.emb (ix2 (0 : Fin 1) k)) = V c main_v25 (ix2 (0 : Fin 1) k)
  refine congrArg (V c main_v25) (funext fun a => Fin.ext ?_)
  match a with
  | ⟨0, _⟩ => show win1_4.index t (0 : Fin 2) * 1 + 1 * 0 = 0; rw [e0]
  | ⟨1, _⟩ => show win1_4.index t (1 : Fin 2) * 64 + 1 * k.val = k.val; rw [e1]; omega

/-- Where entry `(p, q)` of the output's block `t` sits in the array. -/
theorem emb5 (t : Fin cfg1.N) (p : Fin 5000) (q : Fin 64) :
    (((cfg1.win 5).blk t).view.emb (ix2 p q) : S100000x64.Idx) = ix2 (row t p) q := by
  obtain ⟨-, -, -, -, -, -, -, -, -, -, e0, e1⟩ := idx_facts t
  funext a; apply Fin.ext
  match a with
  | ⟨0, _⟩ => show win1_5.index t (0 : Fin 2) * 5000 + 1 * p.val = t.val * 5000 + p.val; rw [e0]; omega
  | ⟨1, _⟩ => show win1_5.index t (1 : Fin 2) * 64 + 1 * q.val = q.val; rw [e1]; omega

/-! ## What point `t` writes back, the cover, the array -/

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  funext y
  obtain ⟨p, q, rfl⟩ : ∃ (p : Fin 5000) (q : Fin 64), y = ix2 p q := ⟨y 0, y 1, eq_ix2 y⟩
  show out1_5 (F := Ideal) (iblk1 V c 0 t) (iblk1 V c 1 t) (iblk1 V c 2 t) (iblk1 V c 3 t) (iblk1 V c 4 t) (ix2 p q)
    = G V c (((cfg1.win 5).blk t).view.emb (ix2 p q))
  rw [emb5]
  refine (Cert.KernelIdeal.NodeBody.out1_5_apply (iblk1 V c 0 t) (iblk1 V c 1 t) (iblk1 V c 2 t) (iblk1 V c 3 t) (iblk1 V c 4 t) p q).trans ?_
  unfold G Cert.Spec.nodeArr
  simp only [blk0 V c t, blk1 V c t, blk2 V c t, blk3 V c t, blk4 V c t]

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v26).slice (win1_5.rect t)).set ↔ _
  rw [View.set_slice_whole, Rect.mem_set_unit]
  exact Iff.rfl

/-- Every index of the array is in some point's block: row `r` lies in block `r / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < 20 := by omega
  refine ⟨⟨(i 0).val / 5000, ht⟩, flush1_5 _, ?_⟩
  rw [mem_blk]
  obtain ⟨-, -, -, -, -, -, -, -, -, -, e0, e1⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- The output array after the region. -/
theorem final (c : Dev nD) : (dat1 V c).arrAt 5 cfg1.N = G V c :=
  (dat1 V c).arrAt_eq_of_cover 5 (G V c) (fun t _ => flushed_eq V c t) (cover)

end Cert.KernelIdeal.NodeArray

end
-- ==== Proof.Whole.lean ====
/-
  The whole program as one function of its thirteen argument arrays.

  Both programs do the same three things outside the dense layers, with the same operations on the same operands:
  gather each edge's source node row (negative indices wrapped once by the node count), average the messages over the
  edges that point at each node (a sum scattered by destination, divided by the count of such edges or by one where
  there are none, and zero where the count is not positive). These are carried here as two named functions, never
  opened: the certificate needs only that both programs feed them equal arrays.
-/
import proofs.«160038_j54176717472000_1_alg».proof.KernelIdeal
import proofs.«160038_j54176717472000_1_alg».proof.Proof.Gen.KernelIdeal
import proofs.«160038_j54176717472000_1_alg».proof.Proof.Spec
import Idealize.ShloMosaic.PureOps.Ideal

noncomputable section

namespace Cert.Whole

open Cert.KernelIdeal Cert.KernelIdeal.Facts₀ Idealize.ShloMosaic Idealize.ShloMosaic.ValueIdx

section Shared

variable {F : FTy → Type} [FloatOps F]

/-- Each edge's source node row: `nh[src]`, a negative index wrapped by the node count. -/
def gatherG (nh : (⟨S100000x64, .f32⟩ : BufTy).Contents (Elt F)) (src : (⟨S1200000, .i32⟩ : BufTy).Contents (Elt F)) :
    (⟨S1200000x64, .f32⟩ : BufTy).Contents (Elt F) :=
  Host.gather gather_S100000x64_S1200000x1_S1200000x64_1_0_n_n_0_1_164 nh
    (broadcastInDim S1200000x1 ![0] bcast_S1200000_S1200000x1_0
      (select (cmpi .slt src (broadcastInDim S1200000 ![] bcast_S_S1200000 (constantI S_ 32 0#32)))
        (addi src (broadcastInDim S1200000 ![] bcast_S_S1200000 (constantI S_ 32 100000#32)))
        src))

/-- How many edges point at each node: ones scattered by destination onto zeros. -/
def countG (dst : (⟨S1200000, .i32⟩ : BufTy).Contents (Elt F)) : (⟨S100000x1, .f32⟩ : BufTy).Contents (Elt F) :=
  Host.scatterAdd scatter_S100000x1_S1200000x1_S1200000x1_1_0_0_1
    (broadcastInDim S100000x1 ![] bcast_S_S100000x1 (constant (F := F) S_ .f32 0x00000000#32))
    (broadcastInDim S1200000x1 ![0] bcast_S1200000_S1200000x1_0 dst)
    (broadcastInDim S1200000x1 ![] bcast_S_S1200000x1 (constant (F := F) S_ .f32 0x3F800000#32))

/-- The messages `M` averaged per destination node: the scattered sum over `max count 1`, and zero where no edge
    points at the node. -/
def midG (M : (⟨S1200000x64, .f32⟩ : BufTy).Contents (Elt F)) (dst : (⟨S1200000, .i32⟩ : BufTy).Contents (Elt F)) :
    (⟨S100000x64, .f32⟩ : BufTy).Contents (Elt F) :=
  select
    (broadcastInDim S100000x64 ![0, 1] bcast_S100000x1_S100000x64_0_1
      (cmpf (F := F) .ogt (countG dst) (broadcastInDim S100000x1 ![] bcast_S_S100000x1 (constant (F := F) S_ .f32 0x00000000#32))))
    (Host.divf
      (Host.scatterAdd scatter_S100000x64_S1200000x1_S1200000x64_1_0_0_1
        (broadcastInDim S100000x64 ![] bcast_S_S100000x64 (constant (F := F) S_ .f32 0x00000000#32))
        (broadcastInDim S1200000x1 ![0] bcast_S1200000_S1200000x1_0 dst)
        M)
      (broadcastInDim S100000x64 ![0, 1] bcast_S100000x1_S100000x64_0_1
        (maximumf (countG dst) (broadcastInDim S100000x1 ![] bcast_S_S100000x1 (constant (F := F) S_ .f32 0x3F800000#32)))))
    (broadcastInDim S100000x64 ![] bcast_S_S100000x64 (id (constant (F := F) S_ .f32 0x00000000#32)))

end Shared

/-- A weight matrix as a function of its two coordinates; a bias vector as a function of its one. -/
def wts {a b : ℕ} (w : (⟨2, ![a, b]⟩ : Shape).Idx → EReal) : Fin a → Fin b → EReal := fun r k => w (ix2 r k)
def bias (b : (⟨1, ![64]⟩ : Shape).Idx → EReal) : Fin 64 → EReal := fun k => b (ix1 k)

/-- The result of the whole program from its arguments, in the programs' order: radial features, edge features, node
    features, source and destination indices, then the four layers' weights and biases. -/
def whole (a0 : (⟨S1200000x128, .f32⟩ : BufTy).Contents (Elt Ideal)) (a1 : (⟨S1200000x64, .f32⟩ : BufTy).Contents (Elt Ideal))
    (a2 : (⟨S100000x64, .f32⟩ : BufTy).Contents (Elt Ideal)) (a3 a4 : (⟨S1200000, .i32⟩ : BufTy).Contents (Elt Ideal))
    (a5 : (⟨S128x64, .f32⟩ : BufTy).Contents (Elt Ideal)) (a6 : (⟨S64, .f32⟩ : BufTy).Contents (Elt Ideal))
    (a7 : (⟨S64x64, .f32⟩ : BufTy).Contents (Elt Ideal)) (a8 : (⟨S64, .f32⟩ : BufTy).Contents (Elt Ideal))
    (a9 : (⟨S64x64, .f32⟩ : BufTy).Contents (Elt Ideal)) (a10 : (⟨S64, .f32⟩ : BufTy).Contents (Elt Ideal))
    (a11 : (⟨S64x64, .f32⟩ : BufTy).Contents (Elt Ideal)) (a12 : (⟨S64, .f32⟩ : BufTy).Contents (Elt Ideal)) :
    (⟨S100000x64, .f32⟩ : BufTy).Contents (Elt Ideal) :=
  Cert.Spec.nodeArr (midG (F := Ideal) (Cert.Spec.edgeArr a0 a1 (gatherG (F := Ideal) a2 a3) (wts a5) (bias a6) (wts a7) (bias a8)) a4)
    (wts a9) (bias a10) (wts a11) (bias a12)

end Cert.Whole

end
-- ==== Proof.KernelStretches.lean ====
/-
  The kernel program's host stretches, read back from an arbitrary assignment of contents to the buffers.

  The first stretch leaves the gathered node rows and two bias rows reshaped and writes no argument; the three
  stretches between the kernels leave the averaged messages and the other two bias rows reshaped and write neither of
  the node kernel's weight matrices. Stated for ANY float family and ANY starting contents: only which operation
  writes which buffer from which is used, nothing about the operations themselves.
-/
import proofs.«160038_j54176717472000_1_alg».proof.Proof.Gen.KernelIdeal.Frame
import proofs.«160038_j54176717472000_1_alg».proof.Proof.Whole
import Idealize.ShloMosaic.Lib.StableHlo.Run

set_option maxRecDepth 16384

noncomputable section

namespace Cert.KernelIdeal.KernelStretches

open Cert.KernelIdeal Cert.KernelIdeal.Gen Idealize.ShloMosaic Idealize.ShloMosaic.TcCoe Idealize.SL.Sem
open Idealize.ShloMosaic.StableHlo Cert.Whole

section Stretches

variable {F : FTy → Type} [FloatOps F] (W : Valuation τ sig (Elt F))

/-- After the first stretch: the gathered node rows. -/
theorem first_v6 : after (hostOps0 (F := F)) W (Proc.devRef .tc main_v6)
    = gatherG (F := F) (W (Proc.devRef .tc main_arg2)) (W (Proc.devRef .tc main_arg3)) := by
  simp only [hostOps0]; after_results; rfl
/-- After the first stretch: the first and second layers' bias rows. -/
theorem first_v7 : after (hostOps0 (F := F)) W (Proc.devRef .tc main_v7)
    = shapeCast S1x64 (W (Proc.devRef .tc main_arg6)) shapeCasts_S64_S1x64 := by
  simp only [hostOps0]; after_results; rfl
theorem first_v8 : after (hostOps0 (F := F)) W (Proc.devRef .tc main_v8)
    = shapeCast S1x64 (W (Proc.devRef .tc main_arg8)) shapeCasts_S64_S1x64 := by
  simp only [hostOps0]; after_results; rfl
/-- The first stretch writes no argument. -/
theorem first_arg0 : after (hostOps0 (F := F)) W (Proc.devRef .tc main_arg0) = W (Proc.devRef .tc main_arg0) := by
  simp only [hostOps0]; after_results
theorem first_arg1 : after (hostOps0 (F := F)) W (Proc.devRef .tc main_arg1) = W (Proc.devRef .tc main_arg1) := by
  simp only [hostOps0]; after_results
theorem first_arg4 : after (hostOps0 (F := F)) W (Proc.devRef .tc main_arg4) = W (Proc.devRef .tc main_arg4) := by
  simp only [hostOps0]; after_results
theorem first_arg5 : after (hostOps0 (F := F)) W (Proc.devRef .tc main_arg5) = W (Proc.devRef .tc main_arg5) := by
  simp only [hostOps0]; after_results
theorem first_arg7 : after (hostOps0 (F := F)) W (Proc.devRef .tc main_arg7) = W (Proc.devRef .tc main_arg7) := by
  simp only [hostOps0]; after_results
theorem first_arg9 : after (hostOps0 (F := F)) W (Proc.devRef .tc main_arg9) = W (Proc.devRef .tc main_arg9) := by
  simp only [hostOps0]; after_results
theorem first_arg10 : after (hostOps0 (F := F)) W (Proc.devRef .tc main_arg10) = W (Proc.devRef .tc main_arg10) := by
  simp only [hostOps0]; after_results
theorem first_arg11 : after (hostOps0 (F := F)) W (Proc.devRef .tc main_arg11) = W (Proc.devRef .tc main_arg11) := by
  simp only [hostOps0]; after_results
theorem first_arg12 : after (hostOps0 (F := F)) W (Proc.devRef .tc main_arg12) = W (Proc.devRef .tc main_arg12) := by
  simp only [hostOps0]; after_results

set_option maxHeartbeats 4000000 in
/-- After the three stretches between the kernels: the averaged messages. -/
theorem mid_v23 : after (hostOps1_2 (F := F)) (after (hostOps1_1 (F := F)) (after (hostOps1 (F := F)) W)) (Proc.devRef .tc main_v23)
    = midG (F := F) (W (Proc.devRef .tc main_v9)) (W (Proc.devRef .tc main_arg4)) := by
  simp only [hostOps1, hostOps1_1, hostOps1_2]; after_results
  simp only [TRef.ofBuf, TRef.toBuf, cast_eq]
  unfold midG countG
  rfl
/-- After them: the third and fourth layers' bias rows. -/
theorem mid_v24 : after (hostOps1_2 (F := F)) (after (hostOps1_1 (F := F)) (after (hostOps1 (F := F)) W)) (Proc.devRef .tc main_v24)
    = shapeCast S1x64 (W (Proc.devRef .tc main_arg10)) shapeCasts_S64_S1x64 := by
  simp only [hostOps1, hostOps1_1, hostOps1_2]; after_results; rfl
theorem mid_v25 : after (hostOps1_2 (F := F)) (after (hostOps1_1 (F := F)) (after (hostOps1 (F := F)) W)) (Proc.devRef .tc main_v25)
    = shapeCast S1x64 (W (Proc.devRef .tc main_arg12)) shapeCasts_S64_S1x64 := by
  simp only [hostOps1, hostOps1_1, hostOps1_2]; after_results; rfl
/-- They write neither weight matrix of the node kernel. -/
theorem mid_arg9 : after (hostOps1_2 (F := F)) (after (hostOps1_1 (F := F)) (after (hostOps1 (F := F)) W)) (Proc.devRef .tc main_arg9)
    = W (Proc.devRef .tc main_arg9) := by
  simp only [hostOps1, hostOps1_1, hostOps1_2]; after_results
theorem mid_arg11 : after (hostOps1_2 (F := F)) (after (hostOps1_1 (F := F)) (after (hostOps1 (F := F)) W)) (Proc.devRef .tc main_arg11)
    = W (Proc.devRef .tc main_arg11) := by
  simp only [hostOps1, hostOps1_1, hostOps1_2]; after_results

end Stretches

end Cert.KernelIdeal.KernelStretches

end
-- ==== Proof.KernelValue.lean ====
/-
  The kernel program's result array, as the function `Whole.whole` of the arrays it was launched with.

  The program is: a stretch of host operations (the gather, the two bias rows reshaped), the edge kernel, three
  stretches of host operations (the scattered average; the two other bias rows reshaped), the node kernel. Reading
  backwards from the result: it is the node kernel's output array, `Spec.nodeArr` of the averaged messages and
  the last two layers' weights; the averaged messages are `Whole.midG` of the edge kernel's output array and the
  destination indices; the edge kernel's output array is `Spec.edgeArr` of the radial and edge features, the gathered
  node rows `Whole.gatherG`, and the first two layers' weights. No host operation and no kernel writes an argument.

  Each stretch is read back from an ARBITRARY assignment of contents to the buffers, so that nothing of the run before
  it is ever opened.
-/
import proofs.«160038_j54176717472000_1_alg».proof.Proof.Gen.KernelIdeal.Frame
import proofs.«160038_j54176717472000_1_alg».proof.Proof.EdgeArray
import proofs.«160038_j54176717472000_1_alg».proof.Proof.NodeArray
import proofs.«160038_j54176717472000_1_alg».proof.Proof.Whole
import proofs.«160038_j54176717472000_1_alg».proof.Proof.KernelStretches
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.Whole Cert.KernelIdeal.KernelStretches

/-! ## The result -/

variable (m : (ℓ : Loc nD τ sig) → Buf (Elt Ideal) ℓ) (ρ : Dev nD → PrngReg)

/-- The edge kernel's output array, from the launch arguments. -/
theorem messages (c : Dev nD) : W2 m ρ c (Proc.devRef .tc main_v9)
    = Cert.Spec.edgeArr (m ((c : Thread nD τ).loc main_arg0)) (m ((c : Thread nD τ).loc main_arg1))
        (gatherG (F := Ideal) (m ((c : Thread nD τ).loc main_arg2)) (m ((c : Thread nD τ).loc main_arg3)))
        (wts (m ((c : Thread nD τ).loc main_arg5))) (bias (m ((c : Thread nD τ).loc main_arg6)))
        (wts (m ((c : Thread nD τ).loc main_arg7))) (bias (m ((c : Thread nD τ).loc main_arg8))) := by
  refine (W2_arr m ρ c 7).trans ((Cert.KernelIdeal.EdgeArray.final (V1 m ρ) c).trans ?_)
  unfold Cert.KernelIdeal.EdgeArray.G
  have h0 : Cert.KernelIdeal.EdgeArray.bfA (V1 m ρ) c = m ((c : Thread nD τ).loc main_arg0) := first_arg0 (F := Ideal) (W0 m ρ c)
  have h1 : Cert.KernelIdeal.EdgeArray.ehA (V1 m ρ) c = m ((c : Thread nD τ).loc main_arg1) := first_arg1 (F := Ideal) (W0 m ρ c)
  have h2 : Cert.KernelIdeal.EdgeArray.nhA (V1 m ρ) c = gatherG (F := Ideal) (m ((c : Thread nD τ).loc main_arg2)) (m ((c : Thread nD τ).loc main_arg3)) := first_v6 (F := Ideal) (W0 m ρ c)
  have h5 : Cert.KernelIdeal.EdgeArray.w1A (V1 m ρ) c = m ((c : Thread nD τ).loc main_arg5) := first_arg5 (F := Ideal) (W0 m ρ c)
  have h7 : Cert.KernelIdeal.EdgeArray.w2A (V1 m ρ) c = m ((c : Thread nD τ).loc main_arg7) := first_arg7 (F := Ideal) (W0 m ρ c)
  have h6 : (fun k : Fin 64 => Cert.KernelIdeal.EdgeArray.b1A (V1 m ρ) c (ix2 (0 : Fin 1) k)) = bias (m ((c : Thread nD τ).loc main_arg6)) := funext fun k => by
    refine (congrFun (first_v7 (F := Ideal) (W0 m ρ c)) (ix2 (0 : Fin 1) k)).trans ?_
    exact shapeCast_a_1a_apply _ shapeCasts_S64_S1x64 (0 : Fin 1) k
  have h8 : (fun k : Fin 64 => Cert.KernelIdeal.EdgeArray.b2A (V1 m ρ) c (ix2 (0 : Fin 1) k)) = bias (m ((c : Thread nD τ).loc main_arg8)) := funext fun k => by
    refine (congrFun (first_v8 (F := Ideal) (W0 m ρ c)) (ix2 (0 : Fin 1) k)).trans ?_
    exact shapeCast_a_1a_apply _ shapeCasts_S64_S1x64 (0 : Fin 1) k
  rw [h0, h1, h2, h5, h7, h6, h8]
  rfl

/-- The program's result array, from the launch arguments. -/
theorem result (c : Dev nD) : W6 m ρ c (Proc.devRef .tc main_v26) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((Cert.KernelIdeal.NodeArray.final (V5 m ρ) c).trans ?_)
  unfold Cert.KernelIdeal.NodeArray.G whole
  have hdst : W2 m ρ c (Proc.devRef .tc main_arg4) = m ((c : Thread nD τ).loc main_arg4) :=
    (W2_of_ne m ρ c main_arg4 (by decide)).trans (first_arg4 (F := Ideal) (W0 m ρ c))
  have hagg : Cert.KernelIdeal.NodeArray.aggA (V5 m ρ) c
      = midG (F := Ideal) (Cert.Spec.edgeArr (m ((c : Thread nD τ).loc main_arg0)) (m ((c : Thread nD τ).loc main_arg1))
          (gatherG (F := Ideal) (m ((c : Thread nD τ).loc main_arg2)) (m ((c : Thread nD τ).loc main_arg3)))
          (wts (m ((c : Thread nD τ).loc main_arg5))) (bias (m ((c : Thread nD τ).loc main_arg6)))
          (wts (m ((c : Thread nD τ).loc main_arg7))) (bias (m ((c : Thread nD τ).loc main_arg8))))
        (m ((c : Thread nD τ).loc main_arg4)) := by
    refine (mid_v23 (F := Ideal) (W2 m ρ c)).trans ?_
    rw [messages m ρ c, hdst]
  have h9 : Cert.KernelIdeal.NodeArray.w3A (V5 m ρ) c = m ((c : Thread nD τ).loc main_arg9) :=
    (mid_arg9 (F := Ideal) (W2 m ρ c)).trans ((W2_of_ne m ρ c main_arg9 (by decide)).trans (first_arg9 (F := Ideal) (W0 m ρ c)))
  have h11 : Cert.KernelIdeal.NodeArray.w4A (V5 m ρ) c = m ((c : Thread nD τ).loc main_arg11) :=
    (mid_arg11 (F := Ideal) (W2 m ρ c)).trans ((W2_of_ne m ρ c main_arg11 (by decide)).trans (first_arg11 (F := Ideal) (W0 m ρ c)))
  have h10 : (fun k : Fin 64 => Cert.KernelIdeal.NodeArray.b3A (V5 m ρ) c (ix2 (0 : Fin 1) k)) = bias (m ((c : Thread nD τ).loc main_arg10)) := funext fun k => by
    refine (congrFun (mid_v24 (F := Ideal) (W2 m ρ c)) (ix2 (0 : Fin 1) k)).trans ?_
    rw [(W2_of_ne m ρ c main_arg10 (by decide)).trans (first_arg10 (F := Ideal) (W0 m ρ c))]
    exact shapeCast_a_1a_apply _ shapeCasts_S64_S1x64 (0 : Fin 1) k
  have h12 : (fun k : Fin 64 => Cert.KernelIdeal.NodeArray.b4A (V5 m ρ) c (ix2 (0 : Fin 1) k)) = bias (m ((c : Thread nD τ).loc main_arg12)) := funext fun k => by
    refine (congrFun (mid_v25 (F := Ideal) (W2 m ρ c)) (ix2 (0 : Fin 1) k)).trans ?_
    rw [(W2_of_ne m ρ c main_arg12 (by decide)).trans (first_arg12 (F := Ideal) (W0 m ρ c))]
    exact shapeCast_a_1a_apply _ shapeCasts_S64_S1x64 (0 : Fin 1) k
  rw [hagg, h9, h11, h10, h12]
  rfl

end Cert.KernelIdeal.KernelValue

end
-- ==== Proof.RefDense.lean ====
/-
  The reference program's stages, read at one entry.

  Each dense layer is, at an entry, the sum over its contracted axis plus the bias entry; each shifted softplus is
  `Spec.ssp` of its operand's entry: the guard in front of it (`a ≠ a`) is never taken on the extended reals.
-/
import proofs.«160038_j54176717472000_1_alg».proof.Proof.RefRead
import proofs.«160038_j54176717472000_1_alg».proof.Proof.Whole
import proofs.«160038_j54176717472000_1_alg».proof.Proof.Spec
import Idealize.ShloMosaic.Lib.ValueIdx
import Idealize.ShloMosaic.PureOps.Ideal.Laws

set_option maxRecDepth 16384

noncomputable section

namespace Cert.ReferenceIdeal.RefDense

open Cert.ReferenceIdeal Cert.ReferenceIdeal.ReadP Idealize.ShloMosaic Idealize.ShloMosaic.ValueIdx Cert.Spec Cert.Whole

variable (x0 : (⟨S1200000x128, .f32⟩ : BufTy).Contents (Elt Ideal)) (x1 : (⟨S1200000x64, .f32⟩ : BufTy).Contents (Elt Ideal))
  (x2 : (⟨S100000x64, .f32⟩ : BufTy).Contents (Elt Ideal)) (x3 x4 : (⟨S1200000, .i32⟩ : BufTy).Contents (Elt Ideal))
  (x5 : (⟨S128x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 : (⟨S64x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))

/-- On the extended reals the absolute value is `max x (−x)` and a float compare is the order's. -/
theorem absf_ideal (x : EReal) : FloatOps.absf (F := Ideal) (φ := .f32) x = max x (-x) := rfl
theorem cmpf_ideal (p : CmpFPredicate) (x y : EReal) : FloatOps.cmpf (F := Ideal) (φ := .f32) p x y = Ideal.cmp p x y := rfl

/-- The reference's softplus at one entry `h`, in its spelling, is `Spec.ssp h`: the guard is dead. -/
theorem ssp_ref (h : EReal) :
    Scalar.select (Ideal.cmp .une (h - zeroW) (h - zeroW)) (h + zeroW) (max h zeroW + Ideal.log1p (Ideal.exp (-(max (h - zeroW) (-(h - zeroW)))))) - ln2W
      = ssp h := by
  rw [guard_dead _ (Or.inr rfl)]; rfl

/-- The first layer before its softplus, at an entry: the sum over the 128 radial features, plus the bias. -/
theorem v3_at (i : S1200000x64.Idx) :
    val_main_v3 (F := Ideal) x0 x5 x6 i
      = (∑ k : Fin 128, x0 (ix2 (n0 := 1200000) (n1 := 128) (i 0) k) * x5 (ix2 (n0 := 128) (n1 := 64) k (i 1))) + bias x6 (i 1) := by
  rw [val_main_v3_apply, val_main_v0_apply, val_main_v2_apply, val_main_v1_apply]
  rw [Ideal.addf_def]
  refine congrArg₂ (· + ·) (Finset.sum_congr rfl fun k _ => congrArg₂ (· * ·) (congrArg x0 ?_) (congrArg x5 ?_)) (congrArg x6 ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-- The first softplus, at an entry. -/
theorem v6_at (i : S1200000x64.Idx) : val_main_v6 (F := Ideal) x0 x5 x6 i = ssp (val_main_v3 (F := Ideal) x0 x5 x6 i) := by
  simp only [val_main_v6_apply, val_main_v4_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_call0_v0_apply, val_main_call0_v2_apply, val_main_call0_v5_apply, val_main_call0_cst_apply,
    val_main_v5_apply, val_main_cst_apply]
  simp only [Ideal.subf_def, Ideal.addf_def, Ideal.maximumf_def, Ideal.hostUnary_log1p_def, Ideal.hostUnary_exp_def,
    Ideal.hostNegf_def, Ideal.hostAbsf_def, Ideal.negf_def, Ideal.ofBits_def, absf_ideal, cmpf_ideal]
  exact ssp_ref _

/-- The second layer before its softplus, at an entry: the sum over the 64 hidden features, plus the bias. -/
theorem v10_at (i : S1200000x64.Idx) :
    val_main_v10 (F := Ideal) x0 x5 x6 x7 x8 i
      = (∑ k : Fin 64, val_main_v6 (F := Ideal) x0 x5 x6 (ix2 (n0 := 1200000) (n1 := 64) (i 0) k) * x7 (ix2 (n0 := 64) (n1 := 64) k (i 1))) + bias x8 (i 1) := by
  rw [val_main_v10_apply, val_main_v7_apply, val_main_v9_apply, val_main_v8_apply]
  rw [Ideal.addf_def]
  refine congrArg₂ (· + ·) (Finset.sum_congr rfl fun k _ => congrArg₂ (· * ·) (congrArg (val_main_v6 (F := Ideal) x0 x5 x6) ?_) (congrArg x7 ?_)) (congrArg x8 ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-- The second softplus, at an entry. -/
theorem v13_at (i : S1200000x64.Idx) : val_main_v13 (F := Ideal) x0 x5 x6 x7 x8 i = ssp (val_main_v10 (F := Ideal) x0 x5 x6 x7 x8 i) := by
  simp only [val_main_v13_apply, val_main_v11_apply, val_main_call1_v4_apply, val_main_call1_v6_apply, val_main_call1_v11_apply,
    val_main_call1_v1_apply, val_main_call1_v10_apply, val_main_call1_v9_apply, val_main_call1_v8_apply, val_main_call1_v7_apply,
    val_main_call1_v3_apply, val_main_call1_v0_apply, val_main_call1_v2_apply, val_main_call1_v5_apply, val_main_call1_cst_apply,
    val_main_v12_apply, val_main_cst_0_apply]
  simp only [Ideal.subf_def, Ideal.addf_def, Ideal.maximumf_def, Ideal.hostUnary_log1p_def, Ideal.hostUnary_exp_def,
    Ideal.hostNegf_def, Ideal.hostAbsf_def, Ideal.negf_def, Ideal.ofBits_def, absf_ideal, cmpf_ideal]
  exact ssp_ref _

/-- The third layer before its softplus, at an entry. -/
theorem v40_at (i : S100000x64.Idx) :
    val_main_v40 (F := Ideal) x0 x1 x2 x3 x4 x5 x6 x7 x8 x9 x10 i
      = (∑ k : Fin 64, val_main_v36 (F := Ideal) x0 x1 x2 x3 x4 x5 x6 x7 x8 (ix2 (n0 := 100000) (n1 := 64) (i 0) k) * x9 (ix2 (n0 := 64) (n1 := 64) k (i 1))) + bias x10 (i 1) := by
  rw [val_main_v40_apply, val_main_v37_apply, val_main_v39_apply, val_main_v38_apply]
  rw [Ideal.addf_def]
  refine congrArg₂ (· + ·) (Finset.sum_congr rfl fun k _ => congrArg₂ (· * ·) (congrArg (val_main_v36 (F := Ideal) x0 x1 x2 x3 x4 x5 x6 x7 x8) ?_) (congrArg x9 ?_)) (congrArg x10 ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-- The third softplus, at an entry. -/
theorem v43_at (i : S100000x64.Idx) :
    val_main_v43 (F := Ideal) x0 x1 x2 x3 x4 x5 x6 x7 x8 x9 x10 i = ssp (val_main_v40 (F := Ideal) x0 x1 x2 x3 x4 x5 x6 x7 x8 x9 x10 i) := by
  rw [val_main_v43_apply, val_main_v41_apply, val_main_call3_v4_apply, val_main_call3_v6_apply, val_main_call3_v11_apply,
    val_main_call3_v1_apply, val_main_call3_v10_apply, val_main_call3_v9_apply, val_main_call3_v8_apply, val_main_call3_v7_apply,
    val_main_call3_v3_apply, val_main_call3_v0_apply, val_main_call3_v2_apply, val_main_call3_v5_apply, val_main_v42_apply,
    val_main_call3_cst_apply, val_main_cst_8_apply]
  generalize val_main_v40 (F := Ideal) x0 x1 x2 x3 x4 x5 x6 x7 x8 x9 x10 i = H
  exact ssp_ref H

/-- The fourth layer before its softplus, at an entry. -/
theorem v47_at (i : S100000x64.Idx) :
    val_main_v47 (F := Ideal) x0 x1 x2 x3 x4 x5 x6 x7 x8 x9 x10 x11 x12 i
      = (∑ k : Fin 64, val_main_v43 (F := Ideal) x0 x1 x2 x3 x4 x5 x6 x7 x8 x9 x10 (ix2 (n0 := 100000) (n1 := 64) (i 0) k) * x11 (ix2 (n0 := 64) (n1 := 64) k (i 1))) + bias x12 (i 1) := by
  rw [val_main_v47_apply, val_main_v44_apply, val_main_v46_apply, val_main_v45_apply]
  rw [Ideal.addf_def]
  refine congrArg₂ (· + ·) (Finset.sum_congr rfl fun k _ => congrArg₂ (· * ·) (congrArg (val_main_v43 (F := Ideal) x0 x1 x2 x3 x4 x5 x6 x7 x8 x9 x10) ?_) (congrArg x11 ?_)) (congrArg x12 ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-- The fourth softplus, at an entry: the result. -/
theorem v50_at (i : S100000x64.Idx) :
    val_main_v50 (F := Ideal) x0 x1 x2 x3 x4 x5 x6 x7 x8 x9 x10 x11 x12 i = ssp (val_main_v47 (F := Ideal) x0 x1 x2 x3 x4 x5 x6 x7 x8 x9 x10 x11 x12 i) := by
  rw [val_main_v50_apply, val_main_v48_apply, val_main_call4_v4_apply, val_main_call4_v6_apply, val_main_call4_v11_apply,
    val_main_call4_v1_apply, val_main_call4_v10_apply, val_main_call4_v9_apply, val_main_call4_v8_apply, val_main_call4_v7_apply,
    val_main_call4_v3_apply, val_main_call4_v0_apply, val_main_call4_v2_apply, val_main_call4_v5_apply, val_main_v49_apply,
    val_main_call4_cst_apply, val_main_cst_9_apply]
  generalize val_main_v47 (F := Ideal) x0 x1 x2 x3 x4 x5 x6 x7 x8 x9 x10 x11 x12 i = H
  exact ssp_ref H

end Cert.ReferenceIdeal.RefDense

end
-- ==== Proof.RefShared.lean ====
/-
  The gather and the scattered average of the reference are the kernel program's, on the same operands.

  Stated for ANY float family: nothing about the operations is used, only that the two programs apply the same ones,
  in the same order, to the same operands.
-/
import proofs.«160038_j54176717472000_1_alg».proof.Proof.RefRead
import proofs.«160038_j54176717472000_1_alg».proof.Proof.Whole

set_option maxRecDepth 16384

noncomputable section

namespace Cert.ReferenceIdeal.RefShared

open Cert.ReferenceIdeal Cert.ReferenceIdeal.ReadP Idealize.ShloMosaic Cert.Whole

variable {F : FTy → Type} [FloatOps F]

/-- The gathered node rows are `Whole.gatherG`. -/
theorem v21_eq (x2 : (⟨S100000x64, .f32⟩ : BufTy).Contents (Elt F)) (x3 : (⟨S1200000, .i32⟩ : BufTy).Contents (Elt F)) :
    val_main_v21 (F := F) x2 x3 = gatherG (F := F) x2 x3 := by
  unfold val_main_v21 val_main_v20 val_main_v19 val_main_v18 val_main_v17 val_main_c_1 val_main_v16 val_main_v15 val_main_c gatherG
  rfl

/-- The averaged messages are `Whole.midG` of the messages, whatever array `M` those are. -/
theorem avg_eq (M : (⟨S1200000x64, .f32⟩ : BufTy).Contents (Elt F)) (x4 : (⟨S1200000, .i32⟩ : BufTy).Contents (Elt F)) :
    select (val_main_call2_v1 (F := F) x4)
        (Host.divf (Host.scatterAdd scatter_S100000x64_S1200000x1_S1200000x64_1_0_0_1 (val_main_v23 (F := F)) (val_main_v24 (F := F) x4) M) (val_main_v34 (F := F) x4))
        (val_main_call2_v2 (F := F))
      = midG (F := F) M x4 := by
  unfold val_main_call2_v1 val_main_call2_v2 val_main_call2_v0 val_main_cst_7 val_main_v34 val_main_v33 val_main_v32
    val_main_cst_6 val_main_v31 val_main_v30 val_main_cst_5 val_main_v29 val_main_v28 val_main_v27 val_main_cst_4 val_main_v26 val_main_cst_3
    val_main_v24 val_main_v23 val_main_cst_2 midG countG
  rfl

end Cert.ReferenceIdeal.RefShared

end
-- ==== Proof.RefValue.lean ====
/-
  The reference program's result, as the function `Whole.whole` of its arguments.

  Entry by entry the messages are `Spec.edgeArr` and the result is `Spec.nodeArr` (the stages of RefDense, the sums
  rewritten under their binders); the gather and the scattered average between them are matched as wholes (RefShared).
-/
import proofs.«160038_j54176717472000_1_alg».proof.Proof.RefRead
import proofs.«160038_j54176717472000_1_alg».proof.Proof.Whole
import proofs.«160038_j54176717472000_1_alg».proof.Proof.Spec
import proofs.«160038_j54176717472000_1_alg».proof.Proof.RefDense
import proofs.«160038_j54176717472000_1_alg».proof.Proof.RefShared
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.ReadP Idealize.ShloMosaic Idealize.ShloMosaic.ValueIdx Cert.Spec Cert.Whole
open Cert.ReferenceIdeal.RefDense

variable (x0 : (⟨S1200000x128, .f32⟩ : BufTy).Contents (Elt Ideal)) (x1 : (⟨S1200000x64, .f32⟩ : BufTy).Contents (Elt Ideal))
  (x2 : (⟨S100000x64, .f32⟩ : BufTy).Contents (Elt Ideal)) (x3 x4 : (⟨S1200000, .i32⟩ : BufTy).Contents (Elt Ideal))
  (x5 : (⟨S128x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 : (⟨S64x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))

/-- The messages: `Spec.edgeArr` over the gathered node rows as the reference computes them. -/
theorem v22_eq : val_main_v22 (F := Ideal) x0 x1 x2 x3 x5 x6 x7 x8
    = edgeArr x0 x1 (val_main_v21 (F := Ideal) x2 x3) (wts x5) (bias x6) (wts x7) (bias x8) := by
  funext i
  rw [val_main_v22_apply, val_main_v14_apply, v13_at, v10_at]
  simp only [Ideal.mulf_def]
  unfold edgeArr edgeRow layer
  simp only [v6_at, v3_at]
  rfl

/-- The averaged messages are `Whole.midG` of the messages. -/
theorem v36_eq : val_main_v36 (F := Ideal) x0 x1 x2 x3 x4 x5 x6 x7 x8 = midG (F := Ideal) (val_main_v22 (F := Ideal) x0 x1 x2 x3 x5 x6 x7 x8) x4 := by
  unfold val_main_v36 val_main_v35 val_main_v25
  exact Cert.ReferenceIdeal.RefShared.avg_eq (F := Ideal) _ x4

/-- The result is `Spec.nodeArr` of the averaged messages. -/
theorem v50_node : val_main_v50 (F := Ideal) x0 x1 x2 x3 x4 x5 x6 x7 x8 x9 x10 x11 x12
    = nodeArr (val_main_v36 (F := Ideal) x0 x1 x2 x3 x4 x5 x6 x7 x8) (wts x9) (bias x10) (wts x11) (bias x12) := by
  funext i
  rw [v50_at, v47_at]
  unfold nodeArr nodeRow layer
  simp only [v43_at, v40_at]
  rfl

/-- THE REFERENCE'S RESULT is `Whole.whole` of its arguments. -/
theorem v50_eq : val_main_v50 (F := Ideal) x0 x1 x2 x3 x4 x5 x6 x7 x8 x9 x10 x11 x12 = whole x0 x1 x2 x3 x4 x5 x6 x7 x8 x9 x10 x11 x12 := by
  rw [v50_node, v36_eq, v22_eq, Cert.ReferenceIdeal.RefShared.v21_eq (F := Ideal)]
  rfl

end Cert.ReferenceIdeal.RefValue

end
-- ==== Proof.lean ====
/-
  The certificate of a SchNet continuous-filter convolution: a tiled kernel program against its plain reference.

  THE MATHEMATICS. For every edge the radial features go through two dense layers, each followed by the shifted softplus
  `ssp h = max h 0 + log (1 + exp (−|h|)) − w` (`w` the f32 word nearest ln 2); the result gates the edge features and
  multiplies the source node's features, giving the edge's message. Messages are averaged over the edges pointing at
  each node, and the average goes through two more dense layers with `ssp`.

  The kernel program computes the messages in 250 blocks of 4800 edges and the node outputs in 20 blocks of 5000
  nodes, casting the matrix products' operands to bf16; the reference computes each stage at once in f32. On the
  extended reals the casts are the identity and a matrix product is the sum over its contracted axis, so a row of a
  dense layer depends on that row of its input alone: the blocks are restrictions of ONE whole-array function
  (`Spec.edgeArr`, `Spec.nodeArr`), and since they tile the arrays the arrays end holding it. The two programs spell the
  softplus identically but for `0 − a` against `−a`, which agree on every extended real; the guard in front of it
  (`a ≠ a`) is never taken. The gather of source rows and the scattered average are the same operations on both
  sides and are matched as wholes. So both results are `Whole.whole` of the arguments. No law used needs the inputs
  to be finite: no sum is distributed over and nothing is cancelled.

  THE CLAIMS. The two kernel programs' frames are the generated ones. The reference's frame is its run with the result
  dropped. Nothing was rewritten when the kernel was idealized, so there is nothing to preserve. For the equivalence the
  kernel program's run is taken with its result array kept (`RunValue`), read as `whole` of the launch arguments
  (`KernelValue`); the reference's run ends at its composed term, which is `whole` of its arguments (`RefValue`); the
  arguments agree.
-/
import proofs.«160038_j54176717472000_1_alg».proof.Defs
import proofs.«160038_j54176717472000_1_alg».proof.Proof.Gen.Kernel
import proofs.«160038_j54176717472000_1_alg».proof.Proof.Gen.Kernel.Skeleton
import proofs.«160038_j54176717472000_1_alg».proof.Proof.Gen.Kernel.Launch
import proofs.«160038_j54176717472000_1_alg».proof.Proof.Gen.Kernel.Points
import proofs.«160038_j54176717472000_1_alg».proof.Proof.Gen.Kernel.Frame
import proofs.«160038_j54176717472000_1_alg».proof.Proof.Gen.KernelIdeal
import proofs.«160038_j54176717472000_1_alg».proof.Proof.Gen.KernelIdeal.Skeleton
import proofs.«160038_j54176717472000_1_alg».proof.Proof.Gen.KernelIdeal.Launch
import proofs.«160038_j54176717472000_1_alg».proof.Proof.Gen.KernelIdeal.Points
import proofs.«160038_j54176717472000_1_alg».proof.Proof.Gen.KernelIdeal.Frame
import proofs.«160038_j54176717472000_1_alg».proof.Proof.Gen.ReferenceIdeal
import proofs.«160038_j54176717472000_1_alg».proof.Proof.RefRun
import proofs.«160038_j54176717472000_1_alg».proof.Proof.RefRead
import proofs.«160038_j54176717472000_1_alg».proof.Proof.Gen.Pre_finite_inputs
import proofs.«160038_j54176717472000_1_alg».proof.Proof.RunValue
import proofs.«160038_j54176717472000_1_alg».proof.Proof.KernelValue
import proofs.«160038_j54176717472000_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- Both programs end with `Whole.whole` of their arguments in the result array, and the arguments agree. -/
theorem algebraic : Cert.algebraic_KernelIdeal_ReferenceIdeal := by
  intro m ρ m' ρ' _ hagree
  refine ⟨fun c => Cert.Whole.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v50_eq, Cert.ReferenceIdeal.RefValue.v50_eq]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
